-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x1000x64 : Shape := ⟨3, ![12, 1000, 64]⟩
abbrev S1000x1000 : Shape := ⟨2, ![1000, 1000]⟩
abbrev S_ : Shape := ⟨0, ![]⟩

class Facts : Prop where
  bcast_S_S12x1000x64 : S_.BroadcastsInDim S12x1000x64 (![] : Fin 0 → Fin S12x1000x64.rank)
  reducesTo_S12x1000x64_S_d0_1_2 : S12x1000x64.ReducesTo [0, 1, 2] S_
  h_S_ : 0 < S_.numel

variable [Facts]

def fn {F : FTy → Type} [FloatOps F] (main_arg0 : FVec F S12x1000x64 .f32) (main_arg1 : IVec S1000x1000 32) : IVec S_ 1 :=
  let main_v0 : FVec F S12x1000x64 .f32 := Host.absf main_arg0
  let main_cst : FVec F S_ .f32 := constant S_ .f32 0x7F800000#32
  let main_v1 : FVec F S12x1000x64 .f32 := broadcastInDim S12x1000x64 ![] bcast_S_S12x1000x64 main_cst
  let main_v2 : IVec S12x1000x64 1 := cmpf .olt main_v0 main_v1
  let main_c : IVec S_ 1 := constantI S_ 1 1#1
  let main_v3 : IVec S_ 1 := (fun x v => Host.reduce IntOp.andi x v reducesTo_S12x1000x64_S_d0_1_2 h_S_) main_v2 main_c
  main_v3
-- ==== Kernel.lean ====
abbrev S12x1000x64 : Shape := ⟨3, ![12, 1000, 64]⟩
abbrev S1000x1000 : Shape := ⟨2, ![1000, 1000]⟩
abbrev S1x1000x64 : Shape := ⟨3, ![1, 1000, 64]⟩
abbrev S1000x64 : Shape := ⟨2, ![1000, 64]⟩
abbrev S64x1000 : Shape := ⟨2, ![64, 1000]⟩
abbrev S1000 : Shape := ⟨1, ![1000]⟩
abbrev S1000x1 : Shape := ⟨2, ![1000, 1]⟩
abbrev S1000x12x64 : Shape := ⟨3, ![1000, 12, 64]⟩
abbrev S1000x12x12 : Shape := ⟨3, ![1000, 12, 12]⟩
abbrev S200x12x64 : Shape := ⟨3, ![200, 12, 64]⟩
abbrev S200x12x12 : Shape := ⟨3, ![200, 12, 12]⟩
abbrev S12x1000x12 : Shape := ⟨3, ![12, 1000, 12]⟩
abbrev S12x1000x12x1000 : Shape := ⟨4, ![12, 1000, 12, 1000]⟩
abbrev S200x1000 : Shape := ⟨2, ![200, 1000]⟩
abbrev S1x200x12 : Shape := ⟨3, ![1, 200, 12]⟩
abbrev S1x200x12x1000 : Shape := ⟨4, ![1, 200, 12, 1000]⟩
abbrev S200x12 : Shape := ⟨2, ![200, 12]⟩
abbrev S200x12x1 : Shape := ⟨3, ![200, 12, 1]⟩
abbrev S200x1x1000 : Shape := ⟨3, ![200, 1, 1000]⟩
abbrev S200x12x1000 : Shape := ⟨3, ![200, 12, 1000]⟩
abbrev S12000x12000 : Shape := ⟨2, ![12000, 12000]⟩

abbrev nBuf : Space → Nat
  | .hbm => 9
  | .vmem => 15
  | .smem => 0
  | _ => 0

abbrev bufTy : (tb : Table) → Fin (tcTables nBuf tb) → BufTy
  | .hbm, ⟨0, _⟩ => ⟨S12x1000x64, .f32⟩
  | .hbm, ⟨1, _⟩ => ⟨S1000x1000, .i32⟩
  | .hbm, ⟨2, _⟩ => ⟨S12x1000x64, .f32⟩
  | .hbm, ⟨3, _⟩ => ⟨S1000x12x64, .f32⟩
  | .hbm, ⟨4, _⟩ => ⟨S1000x12x12, .f32⟩
  | .hbm, ⟨5, _⟩ => ⟨S12x1000x12, .f32⟩
  | .hbm, ⟨6, _⟩ => ⟨S1000x1000, .f32⟩
  | .hbm, ⟨7, _⟩ => ⟨S12x1000x12x1000, .f32⟩
  | .hbm, ⟨8, _⟩ => ⟨S12000x12000, .f32⟩
  | .local _ .vmem, ⟨0, _⟩ => ⟨S1x1000x64, .f32⟩
  | .local _ .vmem, ⟨1, _⟩ => ⟨S1x1000x64, .f32⟩
  | .local _ .vmem, ⟨2, _⟩ => ⟨S1000x1000, .i32⟩
  | .local _ .vmem, ⟨3, _⟩ => ⟨S1x1000x64, .f32⟩
  | .local _ .vmem, ⟨4, _⟩ => ⟨S1x1000x64, .f32⟩
  | .local _ .vmem, ⟨5, _⟩ => ⟨S200x12x64, .f32⟩
  | .local _ .vmem, ⟨6, _⟩ => ⟨S200x12x64, .f32⟩
  | .local _ .vmem, ⟨7, _⟩ => ⟨S200x12x12, .f32⟩
  | .local _ .vmem, ⟨8, _⟩ => ⟨S200x12x12, .f32⟩
  | .local _ .vmem, ⟨9, _⟩ => ⟨S200x1000, .f32⟩
  | .local _ .vmem, ⟨10, _⟩ => ⟨S200x1000, .f32⟩
  | .local _ .vmem, ⟨11, _⟩ => ⟨S1x200x12, .f32⟩
  | .local _ .vmem, ⟨12, _⟩ => ⟨S1x200x12, .f32⟩
  | .local _ .vmem, ⟨13, _⟩ => ⟨S1x200x12x1000, .f32⟩
  | .local _ .vmem, ⟨14, _⟩ => ⟨S1x200x12x1000, .f32⟩
  | _, _ => ⟨S12x1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S200x12x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x12x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![5, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage2_0 : Fin 2 → Memref sig .tc .vmem S200x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x200x12 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x200x12x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  bitsLt_bf16_f32 : FTy.bits .bf16 < FTy.bits .f32
  transposes_S1000x64_p1_0_S64x1000 : S1000x64.Transposes [1, 0] S64x1000
  inb_S1000x1000_S1000x1000_0_0 : ∀ a, (![0, 0] : Fin 2 → Nat) a + S1000x1000.size a ≤ S1000x1000.size a
  h_S1000x1000 : 0 < S1000x1000.numel
  reduces_S1000x1000_S1000 : S1000x1000.Reduces [1] S1000
  shapeCasts_S1000_S1000x1 : S1000.ShapeCasts S1000x1
  broadcasts_S1000x1_S1000x1000 : S1000x1.Broadcasts S1000x1000
  shapeCasts_S1000x64_S1x1000x64 : S1000x64.ShapeCasts S1x1000x64
  transposes_S12x1000x64_S1000x12x64_1_0_2 : S12x1000x64.Transposes [1, 0, 2] S1000x12x64
  inb_S200x12x64_S200x12x64_0_0_0 : ∀ a, (![0, 0, 0] : Fin 3 → Nat) a + S200x12x64.size a ≤ S200x12x64.size a
  h_S200x12x64 : 0 < S200x12x64.numel
  shapeCasts_S200x12x64_S200x12x64 : S200x12x64.ShapeCasts S200x12x64
  inb_S200x12x12_S200x12x12_0_0_0 : ∀ a, (![0, 0, 0] : Fin 3 → Nat) a + S200x12x12.size a ≤ S200x12x12.size a
  h_S200x12x12 : 0 < S200x12x12.numel
  transposes_S1000x12x12_S12x1000x12_2_0_1 : S1000x12x12.Transposes [2, 0, 1] S12x1000x12
  inb_S200x1000_S200x1000_0_0 : ∀ a, (![0, 0] : Fin 2 → Nat) a + S200x1000.size a ≤ S200x1000.size a
  h_S200x1000 : 0 < S200x1000.numel
  shapeCasts_S200x1000_S200x1000 : S200x1000.ShapeCasts S200x1000
  inb_S1x200x12_S1x200x12_0_0_0 : ∀ a, (![0, 0, 0] : Fin 3 → Nat) a + S1x200x12.size a ≤ S1x200x12.size a
  h_S1x200x12 : 0 < S1x200x12.numel
  shapeCasts_S1x200x12_S200x12 : S1x200x12.ShapeCasts S200x12
  shapeCasts_S200x12_S200x12x1 : S200x12.ShapeCasts S200x12x1
  shapeCasts_S200x1000_S200x1x1000 : S200x1000.ShapeCasts S200x1x1000
  broadcasts_S200x12x1_S200x12x1000 : S200x12x1.Broadcasts S200x12x1000
  broadcasts_S200x1x1000_S200x12x1000 : S200x1x1000.Broadcasts S200x12x1000
  inb_S1x200x12x1000_S1x200x12x1000_0_0_0_0 : ∀ a, (![0, 0, 0, 0] : Fin 4 → Nat) a + S1x200x12x1000.size a ≤ S1x200x12x1000.size a
  h_S1x200x12x1000 : 0 < S1x200x12x1000.numel
  shapeCasts_S1x200x12x1000_S200x12x1000 : S1x200x12x1000.ShapeCasts S200x12x1000
  shapeCasts_S200x12x1000_S1x200x12x1000 : S200x12x1000.ShapeCasts S1x200x12x1000
  shapeCasts_S12x1000x12x1000_S12000x12000 : S12x1000x12x1000.ShapeCasts S12000x12000
  dot_S1000x64_S64x1000_S1000x1000_1_0_0_1_n_n_wf : DotDims.WF S1000x64 S64x1000 S1000x1000 [1] [0] [0] [1] [] []
  dot_S1000x1000_S1000x64_S1000x64_1_0_0_1_n_n_wf : DotDims.WF S1000x1000 S1000x64 S1000x64 [1] [0] [0] [1] [] []
  dot_S200x12x64_S200x12x64_S200x12x12_2_2_1_1_0_0_wf : DotDims.WF S200x12x64 S200x12x64 S200x12x12 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S12x1000x64.size a
  hwx0_0 : ∀ i : grid0.Coords, EltTy.bits .f32 = 32 ∨ (Rect.block (s := S12x1000x64) S1x1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .i32 = 32 ∨ (Rect.block (s := S1000x1000) S1000x1000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x64.size a ≤ S12x1000x64.size a
  hwx0_2 : ∀ i : grid0.Coords, EltTy.bits .f32 = 32 ∨ (Rect.block (s := S12x1000x64) S1x1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x12x64.size a ≤ S1000x12x64.size a
  hwx1_0 : ∀ i : grid1.Coords, EltTy.bits .f32 = 32 ∨ (Rect.block (s := S1000x12x64) S200x12x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x12x12.size a ≤ S1000x12x12.size a
  hwx1_1 : ∀ i : grid1.Coords, EltTy.bits .f32 = 32 ∨ (Rect.block (s := S1000x12x12) S200x12x12.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x1000.size a ≤ S1000x1000.size a
  hwx2_0 : ∀ i : grid2.Coords, EltTy.bits .f32 = 32 ∨ (Rect.block (s := S1000x1000) S200x1000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x200x12.size a ≤ S12x1000x12.size a
  hwx2_1 : ∀ i : grid2.Coords, EltTy.bits .f32 = 32 ∨ (Rect.block (s := S12x1000x12) S1x200x12.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x200x12x1000.size a ≤ S12x1000x12x1000.size a
  hwx2_2 : ∀ i : grid2.Coords, EltTy.bits .f32 = 32 ∨ (Rect.block (s := S12x1000x12x1000) S1x200x12x1000.size (cc2_transform_2 i) (hinb2_2 i)).WholeWords (EltTy.packing .f32)

variable [Facts₀]

def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def dot_S200x12x64_S200x12x64_S200x12x12_2_2_1_1_0_0 : DotDims S200x12x64 S200x12x64 S200x12x12 where
  lhsContracting := [2]
  rhsContracting := [2]
  lhsNonContracting := [1]
  rhsNonContracting := [1]
  lhsBatch := [0]
  rhsBatch := [0]
  wf := dot_S200x12x64_S200x12x64_S200x12x12_2_2_1_1_0_0_wf

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S200x12x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S200x12x12.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S200x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x200x12.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x200x12x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12x1000x64 : Shape := ⟨3, ![12, 1000, 64]⟩
abbrev S1000x1000 : Shape := ⟨2, ![1000, 1000]⟩
abbrev S12x1000x1000 : Shape := ⟨3, ![12, 1000, 1000]⟩
abbrev S_ : Shape := ⟨0, ![]⟩
abbrev S1x1000x1000 : Shape := ⟨3, ![1, 1000, 1000]⟩
abbrev S12x1000 : Shape := ⟨2, ![12, 1000]⟩
abbrev S12x1000x1 : Shape := ⟨3, ![12, 1000, 1]⟩
abbrev S1000x12x64 : Shape := ⟨3, ![1000, 12, 64]⟩
abbrev S1000x12x12 : Shape := ⟨3, ![1000, 12, 12]⟩
abbrev S12x1000x12 : Shape := ⟨3, ![12, 1000, 12]⟩
abbrev S12x1000x12x1 : Shape := ⟨4, ![12, 1000, 12, 1]⟩
abbrev S1x1000x1x1000 : Shape := ⟨4, ![1, 1000, 1, 1000]⟩
abbrev S12x1000x12x1000 : Shape := ⟨4, ![12, 1000, 12, 1000]⟩
abbrev S12000x12000 : Shape := ⟨2, ![12000, 12000]⟩

abbrev nBuf : Space → Nat
  | .hbm => 51
  | .vmem => 0
  | .smem => 0
  | _ => 0

abbrev bufTy : (tb : Table) → Fin (tcTables nBuf tb) → BufTy
  | .hbm, ⟨0, _⟩ => ⟨S12x1000x64, .f32⟩
  | .hbm, ⟨1, _⟩ => ⟨S1000x1000, .i32⟩
  | .hbm, ⟨2, _⟩ => ⟨S12x1000x1000, .f32⟩
  | .hbm, ⟨3, _⟩ => ⟨S_, .f32⟩
  | .hbm, ⟨4, _⟩ => ⟨S12x1000x1000, .f32⟩
  | .hbm, ⟨5, _⟩ => ⟨S12x1000x1000, .f32⟩
  | .hbm, ⟨6, _⟩ => ⟨S1x1000x1000, .i32⟩
  | .hbm, ⟨7, _⟩ => ⟨S_, .i32⟩
  | .hbm, ⟨8, _⟩ => ⟨S1x1000x1000, .i32⟩
  | .hbm, ⟨9, _⟩ => ⟨S1x1000x1000, .i1⟩
  | .hbm, ⟨10, _⟩ => ⟨S_, .f32⟩
  | .hbm, ⟨11, _⟩ => ⟨S_, .f32⟩
  | .hbm, ⟨12, _⟩ => ⟨S12x1000x1000, .i1⟩
  | .hbm, ⟨13, _⟩ => ⟨S12x1000x1000, .f32⟩
  | .hbm, ⟨14, _⟩ => ⟨S12x1000x1000, .f32⟩
  | .hbm, ⟨15, _⟩ => ⟨S_, .f32⟩
  | .hbm, ⟨16, _⟩ => ⟨S12x1000, .f32⟩
  | .hbm, ⟨17, _⟩ => ⟨S_, .f32⟩
  | .hbm, ⟨18, _⟩ => ⟨S12x1000, .f32⟩
  | .hbm, ⟨19, _⟩ => ⟨S12x1000, .f32⟩
  | .hbm, ⟨20, _⟩ => ⟨S12x1000x1, .f32⟩
  | .hbm, ⟨21, _⟩ => ⟨S12x1000x1000, .f32⟩
  | .hbm, ⟨22, _⟩ => ⟨S12x1000x1000, .f32⟩
  | .hbm, ⟨23, _⟩ => ⟨S12x1000x1000, .f32⟩
  | .hbm, ⟨24, _⟩ => ⟨S_, .f32⟩
  | .hbm, ⟨25, _⟩ => ⟨S12x1000, .f32⟩
  | .hbm, ⟨26, _⟩ => ⟨S12x1000x1, .f32⟩
  | .hbm, ⟨27, _⟩ => ⟨S12x1000x1000, .f32⟩
  | .hbm, ⟨28, _⟩ => ⟨S12x1000x1000, .f32⟩
  | .hbm, ⟨29, _⟩ => ⟨S12x1000x64, .f32⟩
  | .hbm, ⟨30, _⟩ => ⟨S1000x12x64, .f32⟩
  | .hbm, ⟨31, _⟩ => ⟨S1000x12x12, .f32⟩
  | .hbm, ⟨32, _⟩ => ⟨S_, .f32⟩
  | .hbm, ⟨33, _⟩ => ⟨S1000x12x12, .f32⟩
  | .hbm, ⟨34, _⟩ => ⟨S1000x12x12, .f32⟩
  | .hbm, ⟨35, _⟩ => ⟨S1000x12x12, .f32⟩
  | .hbm, ⟨36, _⟩ => ⟨S1000x12x12, .f32⟩
  | .hbm, ⟨37, _⟩ => ⟨S_, .f32⟩
  | .hbm, ⟨38, _⟩ => ⟨S1000x12x12, .f32⟩
  | .hbm, ⟨39, _⟩ => ⟨S1000x12x12, .f32⟩
  | .hbm, ⟨40, _⟩ => ⟨S_, .f32⟩
  | .hbm, ⟨41, _⟩ => ⟨S1000x12x12, .f32⟩
  | .hbm, ⟨42, _⟩ => ⟨S1000x12x12, .f32⟩
  | .hbm, ⟨43, _⟩ => ⟨S12x1000x12, .f32⟩
  | .hbm, ⟨44, _⟩ => ⟨S12x1000x12x1, .f32⟩
  | .hbm, ⟨45, _⟩ => ⟨S1000x1000, .f32⟩
  | .hbm, ⟨46, _⟩ => ⟨S1x1000x1x1000, .f32⟩
  | .hbm, ⟨47, _⟩ => ⟨S12x1000x12x1000, .f32⟩
  | .hbm, ⟨48, _⟩ => ⟨S12x1000x12x1000, .f32⟩
  | .hbm, ⟨49, _⟩ => ⟨S12x1000x12x1000, .f32⟩
  | .hbm, ⟨50, _⟩ => ⟨S12000x12000, .f32⟩
  | _, _ => ⟨S12x1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S12x1000x1000 : S_.BroadcastsInDim S12x1000x1000 (![] : Fin 0 → Fin S12x1000x1000.rank)
  bcast_S1000x1000_S1x1000x1000_1_2 : S1000x1000.BroadcastsInDim S1x1000x1000 (![1, 2] : Fin 2 → Fin S1x1000x1000.rank)
  bcast_S_S1x1000x1000 : S_.BroadcastsInDim S1x1000x1000 (![] : Fin 0 → Fin S1x1000x1000.rank)
  bcast_S1x1000x1000_S12x1000x1000_0_1_2 : S1x1000x1000.BroadcastsInDim S12x1000x1000 (![0, 1, 2] : Fin 3 → Fin S12x1000x1000.rank)
  reducesTo_S12x1000x1000_S12x1000_d2 : S12x1000x1000.ReducesTo [2] S12x1000
  h_S_ : 0 < S_.numel
  bcast_S_S12x1000 : S_.BroadcastsInDim S12x1000 (![] : Fin 0 → Fin S12x1000.rank)
  bcast_S12x1000_S12x1000x1_0_1 : S12x1000.BroadcastsInDim S12x1000x1 (![0, 1] : Fin 2 → Fin S12x1000x1.rank)
  bcast_S12x1000x1_S12x1000x1000_0_1_2 : S12x1000x1.BroadcastsInDim S12x1000x1000 (![0, 1, 2] : Fin 3 → Fin S12x1000x1000.rank)
  transposes_S12x1000x64_S1000x12x64_1_0_2 : S12x1000x64.Transposes [1, 0, 2] S1000x12x64
  bcast_S_S1000x12x12 : S_.BroadcastsInDim S1000x12x12 (![] : Fin 0 → Fin S1000x12x12.rank)
  transposes_S1000x12x12_S12x1000x12_2_0_1 : S1000x12x12.Transposes [2, 0, 1] S12x1000x12
  bcast_S12x1000x12_S12x1000x12x1_0_1_2 : S12x1000x12.BroadcastsInDim S12x1000x12x1 (![0, 1, 2] : Fin 3 → Fin S12x1000x12x1.rank)
  bcast_S1000x1000_S1x1000x1x1000_1_3 : S1000x1000.BroadcastsInDim S1x1000x1x1000 (![1, 3] : Fin 2 → Fin S1x1000x1x1000.rank)
  bcast_S12x1000x12x1_S12x1000x12x1000_0_1_2_3 : S12x1000x12x1.BroadcastsInDim S12x1000x12x1000 (![0, 1, 2, 3] : Fin 4 → Fin S12x1000x12x1000.rank)
  bcast_S1x1000x1x1000_S12x1000x12x1000_0_1_2_3 : S1x1000x1x1000.BroadcastsInDim S12x1000x12x1000 (![0, 1, 2, 3] : Fin 4 → Fin S12x1000x12x1000.rank)
  shapeCasts_S12x1000x12x1000_S12000x12000 : S12x1000x12x1000.ShapeCasts S12000x12000
  dot_S12x1000x64_S12x1000x64_S12x1000x1000_2_2_1_1_0_0_wf : DotDims.WF S12x1000x64 S12x1000x64 S12x1000x1000 [2] [2] [1] [1] [0] [0]
  dot_S12x1000x1000_S12x1000x64_S12x1000x64_2_1_1_2_0_0_wf : DotDims.WF S12x1000x1000 S12x1000x64 S12x1000x64 [2] [1] [1] [2] [0] [0]
  dot_S1000x12x64_S1000x12x64_S1000x12x12_2_2_1_1_0_0_wf : DotDims.WF S1000x12x64 S1000x12x64 S1000x12x12 [2] [2] [1] [1] [0] [0]

variable [Facts₀]

def dot_S12x1000x64_S12x1000x64_S12x1000x1000_2_2_1_1_0_0 : DotDims S12x1000x64 S12x1000x64 S12x1000x1000 where
  lhsContracting := [2]
  rhsContracting := [2]
  lhsNonContracting := [1]
  rhsNonContracting := [1]
  lhsBatch := [0]
  rhsBatch := [0]
  wf := dot_S12x1000x64_S12x1000x64_S12x1000x1000_2_2_1_1_0_0_wf
def dot_S12x1000x1000_S12x1000x64_S12x1000x64_2_1_1_2_0_0 : DotDims S12x1000x1000 S12x1000x64 S12x1000x64 where
  lhsContracting := [2]
  rhsContracting := [1]
  lhsNonContracting := [1]
  rhsNonContracting := [2]
  lhsBatch := [0]
  rhsBatch := [0]
  wf := dot_S12x1000x1000_S12x1000x64_S12x1000x64_2_1_1_2_0_0_wf
def dot_S1000x12x64_S1000x12x64_S1000x12x12_2_2_1_1_0_0 : DotDims S1000x12x64 S1000x12x64 S1000x12x12 where
  lhsContracting := [2]
  rhsContracting := [2]
  lhsNonContracting := [1]
  rhsNonContracting := [1]
  lhsBatch := [0]
  rhsBatch := [0]
  wf := dot_S1000x12x64_S1000x12x64_S1000x12x12_2_2_1_1_0_0_wf

class Facts : Prop extends Facts₀ where

variable [Facts]
-- ==== Proof.Spec.lean ====
/-
  What both programs compute, written once over the extended reals and read index by index.

  One timestamp of the graph attention takes the node features `h` (1000 nodes, 64 features) and the adjacency
  words `a`: the logit of node `n` against node `m` is their inner product times 1/8; where the adjacency word is
  not positive the logit is replaced by a large negative fill; each row is shifted by its maximum (the fold of
  `max` from minus infinity, once more against minus infinity), exponentiated, and divided by the row's sum; the
  resulting weights average the rows of `h`.  The temporal step takes, for one node, its twelve feature rows `s`
  and returns the logistic function of the scaled inner product of rows `t` and `u`.
-/
import Idealize.ShloMosaic.PureOps.Ideal
import Idealize.ShloMosaic.PureOps.Ideal.Laws
import Idealize.ShloMosaic.Lib.ValueIdx

noncomputable section

namespace Cert.Spec

open Idealize.ShloMosaic

/-- The scale 1/8 = 1/sqrt 64, as the word both programs carry. -/
abbrev scale : EReal := Ideal.ofBits .f32 0x3E000000#32
/-- The finite fill that stands where the adjacency has no edge. -/
abbrev maskFill : EReal := Ideal.ofBits .f32 0xD368D4A5#32
/-- The word of minus infinity a row maximum starts from. -/
abbrev negInf : EReal := Ideal.ofBits .f32 0xFF800000#32

/-- The scaled inner product of the feature rows of nodes `n` and `m`. -/
def logit (h : Fin 1000 → Fin 64 → EReal) (n m : Fin 1000) : EReal :=
  (∑ d : Fin 64, h n d * h m d) * scale

/-- The logit where `a n m` is positive as a signed word, the fill elsewhere. -/
def masked (a : Fin 1000 → Fin 1000 → BitVec 32) (h : Fin 1000 → Fin 64 → EReal) (n m : Fin 1000) : EReal :=
  Scalar.select (IntOp.cmpi .sgt (a n m) 0#32) (logit h n m) maskFill

/-- Row `n`'s maximum: the fold of `max` over the row from minus infinity, taken once more against minus infinity. -/
def rowMax (a : Fin 1000 → Fin 1000 → BitVec 32) (h : Fin 1000 → Fin 64 → EReal) (n : Fin 1000) : EReal :=
  max negInf ((Finset.univ : Finset (Fin 1000)).fold max negInf (masked a h n))

/-- The exponential of the shifted entry. -/
def expo (a : Fin 1000 → Fin 1000 → BitVec 32) (h : Fin 1000 → Fin 64 → EReal) (n m : Fin 1000) : EReal :=
  Ideal.exp (masked a h n m - rowMax a h n)

/-- The row's sum of exponentials. -/
def denom (a : Fin 1000 → Fin 1000 → BitVec 32) (h : Fin 1000 → Fin 64 → EReal) (n : Fin 1000) : EReal :=
  ∑ m : Fin 1000, expo a h n m

/-- The attention weight of node `m` for node `n`. -/
def attn (a : Fin 1000 → Fin 1000 → BitVec 32) (h : Fin 1000 → Fin 64 → EReal) (n m : Fin 1000) : EReal :=
  Ideal.div (expo a h n m) (denom a h n)

/-- Node `n`'s new feature `d`: the attention-weighted sum of the nodes' features. -/
def nodeFeat (a : Fin 1000 → Fin 1000 → BitVec 32) (h : Fin 1000 → Fin 64 → EReal) (n : Fin 1000) (d : Fin 64) : EReal :=
  ∑ m : Fin 1000, attn a h n m * h m d

/-- For one node with feature rows `s` over the twelve timestamps: the logistic function of the scaled inner
    product of rows `t` and `u`. -/
def temporal (s : Fin 12 → Fin 64 → EReal) (t u : Fin 12) : EReal :=
  Ideal.logistic ((∑ d : Fin 64, s t d * s u d) * scale)

end Cert.Spec

end
-- ==== Proof.KPay0.lean ====
/-
  The first kernel body's arithmetic, read at an index, over the extended reals.

  The body takes the block of node features x0 (one timestamp: 1 x 1000 x 64) and the adjacency words x1 (1000 x 1000).
  With h n d = x0 (0, n, d) and a n m = x1 (n, m), its stored value at (0, n, d) is the attention-weighted sum
  ∑ m, attn a h n m * h m d of the specification: the logits are the product of h with its transpose times 1/8, masked by
  the sign of the adjacency word, shifted by the row maximum, exponentiated and divided by the row sum, and the weights
  are multiplied into h once more.

  The proof reads each operation that is not elementwise at coordinates (n, m): a product of matrices as the sum over its
  contracted coordinate, a row reduction as the sum or the fold of max over the row, a vector turned into a column and
  spread over the columns as the vector's entry, a transpose as the swapped entry, a unit axis dropped or added as the
  same entry. The body is then a chain of eight stages, each equal at every index to the specification's function of the
  same name.
-/
import proofs.«144394_j68367289417954_1_alg».proof.Proof.Gen.KernelIdeal.Skeleton
import proofs.«144394_j68367289417954_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

/-! ## The two contractions' operand indices, axis by axis -/

private theorem lhsA_0 (i : S1000x1000.Idx) (q : dot_S1000x64_S64x1000_S1000x1000_1_0_0_1_n_n.contr.Idx) :
    (dot_S1000x64_S64x1000_S1000x1000_1_0_0_1_n_n.lhsIdx i q 0).val = (i 0).val := by
  unfold DotDims.lhsIdx
  rw [dif_neg (show ¬(0 : Fin S1000x64.rank) ∈ dot_S1000x64_S64x1000_S1000x1000_1_0_0_1_n_n.lhsBatch by decide), dif_pos (show (0 : Fin S1000x64.rank) ∈ dot_S1000x64_S64x1000_S1000x1000_1_0_0_1_n_n.lhsNonContracting by decide)]
  rfl
private theorem lhsA_1 (i : S1000x1000.Idx) (q : dot_S1000x64_S64x1000_S1000x1000_1_0_0_1_n_n.contr.Idx) :
    (dot_S1000x64_S64x1000_S1000x1000_1_0_0_1_n_n.lhsIdx i q 1).val = (q ⟨0, by decide⟩).val :=
  dot_S1000x64_S64x1000_S1000x1000_1_0_0_1_n_n.lhsIdx_val_of_single rfl i q
private theorem rhsA_0 (i : S1000x1000.Idx) (q : dot_S1000x64_S64x1000_S1000x1000_1_0_0_1_n_n.contr.Idx) :
    (dot_S1000x64_S64x1000_S1000x1000_1_0_0_1_n_n.rhsIdx i q 0).val = (q ⟨0, by decide⟩).val :=
  dot_S1000x64_S64x1000_S1000x1000_1_0_0_1_n_n.rhsIdx_val_of_single rfl i q
private theorem rhsA_1 (i : S1000x1000.Idx) (q : dot_S1000x64_S64x1000_S1000x1000_1_0_0_1_n_n.contr.Idx) :
    (dot_S1000x64_S64x1000_S1000x1000_1_0_0_1_n_n.rhsIdx i q 1).val = (i 1).val := by
  unfold DotDims.rhsIdx
  rw [dif_neg (show ¬(1 : Fin S64x1000.rank) ∈ dot_S1000x64_S64x1000_S1000x1000_1_0_0_1_n_n.rhsBatch by decide), dif_pos (show (1 : Fin S64x1000.rank) ∈ dot_S1000x64_S64x1000_S1000x1000_1_0_0_1_n_n.rhsNonContracting by decide)]
  rfl

private theorem lhsB_0 (i : S1000x64.Idx) (q : dot_S1000x1000_S1000x64_S1000x64_1_0_0_1_n_n.contr.Idx) :
    (dot_S1000x1000_S1000x64_S1000x64_1_0_0_1_n_n.lhsIdx i q 0).val = (i 0).val := by
  unfold DotDims.lhsIdx
  rw [dif_neg (show ¬(0 : Fin S1000x1000.rank) ∈ dot_S1000x1000_S1000x64_S1000x64_1_0_0_1_n_n.lhsBatch by decide), dif_pos (show (0 : Fin S1000x1000.rank) ∈ dot_S1000x1000_S1000x64_S1000x64_1_0_0_1_n_n.lhsNonContracting by decide)]
  rfl
private theorem lhsB_1 (i : S1000x64.Idx) (q : dot_S1000x1000_S1000x64_S1000x64_1_0_0_1_n_n.contr.Idx) :
    (dot_S1000x1000_S1000x64_S1000x64_1_0_0_1_n_n.lhsIdx i q 1).val = (q ⟨0, by decide⟩).val :=
  dot_S1000x1000_S1000x64_S1000x64_1_0_0_1_n_n.lhsIdx_val_of_single rfl i q
private theorem rhsB_0 (i : S1000x64.Idx) (q : dot_S1000x1000_S1000x64_S1000x64_1_0_0_1_n_n.contr.Idx) :
    (dot_S1000x1000_S1000x64_S1000x64_1_0_0_1_n_n.rhsIdx i q 0).val = (q ⟨0, by decide⟩).val :=
  dot_S1000x1000_S1000x64_S1000x64_1_0_0_1_n_n.rhsIdx_val_of_single rfl i q
private theorem rhsB_1 (i : S1000x64.Idx) (q : dot_S1000x1000_S1000x64_S1000x64_1_0_0_1_n_n.contr.Idx) :
    (dot_S1000x1000_S1000x64_S1000x64_1_0_0_1_n_n.rhsIdx i q 1).val = (i 1).val := by
  unfold DotDims.rhsIdx
  rw [dif_neg (show ¬(1 : Fin S1000x64.rank) ∈ dot_S1000x1000_S1000x64_S1000x64_1_0_0_1_n_n.rhsBatch by decide), dif_pos (show (1 : Fin S1000x64.rank) ∈ dot_S1000x1000_S1000x64_S1000x64_1_0_0_1_n_n.rhsNonContracting by decide)]
  rfl

/-- The first product at (n, m): the sum over the 64 features of the left row n times the right column m. -/
private theorem matmulA_apply (a : FVec Ideal S1000x64 .bf16) (b : FVec Ideal S64x1000 .bf16) (n m : Fin 1000) :
    matmul dot_S1000x64_S64x1000_S1000x1000_1_0_0_1_n_n none a b (constant (F := Ideal) S1000x1000 .f32 0x00000000#32) (ix2 n m)
      = ∑ k : Fin 64, a (ix2 n k) * b (ix2 k m) := by
  simp only [matmul]
  rw [Ideal.matmul_constant_zero_apply, ← Equiv.sum_comp (ValueIdx.contrEquiv1 dot_S1000x64_S64x1000_S1000x1000_1_0_0_1_n_n 64 rfl rfl).symm]
  refine Finset.sum_congr rfl fun k _ => ?_
  have hk := ValueIdx.contrEquiv1_symm_val dot_S1000x64_S64x1000_S1000x1000_1_0_0_1_n_n 64 rfl rfl k
  have el : dot_S1000x64_S64x1000_S1000x1000_1_0_0_1_n_n.lhsIdx (ix2 n m) ((ValueIdx.contrEquiv1 dot_S1000x64_S64x1000_S1000x1000_1_0_0_1_n_n 64 rfl rfl).symm k) = ix2 n k := funext fun c => Fin.ext (by
    match c with
    | ⟨0, _⟩ => exact lhsA_0 _ _
    | ⟨1, _⟩ => exact (lhsA_1 _ _).trans hk)
  have er : dot_S1000x64_S64x1000_S1000x1000_1_0_0_1_n_n.rhsIdx (ix2 n m) ((ValueIdx.contrEquiv1 dot_S1000x64_S64x1000_S1000x1000_1_0_0_1_n_n 64 rfl rfl).symm k) = ix2 k m := funext fun c => Fin.ext (by
    match c with
    | ⟨0, _⟩ => exact (rhsA_0 _ _).trans hk
    | ⟨1, _⟩ => exact rhsA_1 _ _)
  rw [el, er]

/-- The second product at (n, d): the sum over the 1000 nodes of the weight row n times the feature column d. -/
private theorem matmulB_apply (w : FVec Ideal S1000x1000 .bf16) (b : FVec Ideal S1000x64 .bf16) (n : Fin 1000) (d : Fin 64) :
    matmul dot_S1000x1000_S1000x64_S1000x64_1_0_0_1_n_n none w b (constant (F := Ideal) S1000x64 .f32 0x00000000#32) (ix2 n d)
      = ∑ m : Fin 1000, w (ix2 n m) * b (ix2 m d) := by
  simp only [matmul]
  rw [Ideal.matmul_constant_zero_apply, ← Equiv.sum_comp (ValueIdx.contrEquiv1 dot_S1000x1000_S1000x64_S1000x64_1_0_0_1_n_n 1000 rfl rfl).symm]
  refine Finset.sum_congr rfl fun k _ => ?_
  have hk := ValueIdx.contrEquiv1_symm_val dot_S1000x1000_S1000x64_S1000x64_1_0_0_1_n_n 1000 rfl rfl k
  have el : dot_S1000x1000_S1000x64_S1000x64_1_0_0_1_n_n.lhsIdx (ix2 n d) ((ValueIdx.contrEquiv1 dot_S1000x1000_S1000x64_S1000x64_1_0_0_1_n_n 1000 rfl rfl).symm k) = ix2 n k := funext fun c => Fin.ext (by
    match c with
    | ⟨0, _⟩ => exact lhsB_0 _ _
    | ⟨1, _⟩ => exact (lhsB_1 _ _).trans hk)
  have er : dot_S1000x1000_S1000x64_S1000x64_1_0_0_1_n_n.rhsIdx (ix2 n d) ((ValueIdx.contrEquiv1 dot_S1000x1000_S1000x64_S1000x64_1_0_0_1_n_n 1000 rfl rfl).symm k) = ix2 k d := funext fun c => Fin.ext (by
    match c with
    | ⟨0, _⟩ => exact (rhsB_0 _ _).trans hk
    | ⟨1, _⟩ => exact rhsB_1 _ _)
  rw [el, er]

/-! ## The column forms of the layout operations, and the two row reductions -/

/-- A vector of 1000 entries viewed as a column and spread over 1000 columns reads, at (n, m), its entry n. -/
private theorem column_apply {α : Type} (v : S1000.Idx → α) (hc : S1000.ShapeCasts S1000x1) (hb : S1000x1.Broadcasts S1000x1000)
    (n m : Fin 1000) : broadcastTo S1000x1000 (shapeCast S1000x1 v hc) hb (ix2 n m) = v (ix1 n) := by
  refine (broadcastTo_apply (shapeCast S1000x1 v hc) hb (ix2 n m) (ix2 n (0 : Fin 1)) fun ax => ?_).trans ?_
  · match ax with
    | ⟨0, _⟩ => rfl
    | ⟨1, _⟩ => rfl
  · refine shapeCast_apply v hc (ix2 n (0 : Fin 1)) (ix1 n) ?_
    rw [Shape.rowMajor_val_two, Shape.rowMajor_val_one]
    show n.val = n.val * 1 + 0
    omega

/-- The row sum at n is the sum of the row's 1000 entries. -/
private theorem rowSum_apply (src : FVec Ideal S1000x1000 .f32) (h : S1000x1000.Reduces [1] S1000)
    (hφ : FKind.Formats .f32) (hacc : (0x00000000#32 : BitVec 32) = FKind.add.neutral .f32 hφ) (n : Fin 1000) :
    multiReduction (F := Ideal) .add [1] S1000 src 0x00000000#32 h hφ hacc (ix1 n) = ∑ m : Fin 1000, src (ix2 n m) := by
  refine (Ideal.multiReduction_add_single src 0x00000000#32 h hφ hacc (ix1 n)).trans ?_
  refine Finset.sum_congr rfl fun k _ => congrArg src ?_
  exact funext fun c => Fin.ext (by match c with | ⟨0, _⟩ => rfl | ⟨1, _⟩ => rfl)

/-- The row maximum at n is the fold of max over the row's 1000 entries from minus infinity. -/
private theorem rowFold_apply (src : FVec Ideal S1000x1000 .f32) (h : S1000x1000.Reduces [1] S1000)
    (hφ : FKind.Formats .f32) (hacc : (0xFF800000#32 : BitVec 32) = FKind.maximumf.neutral .f32 hφ) (n : Fin 1000) :
    multiReduction (F := Ideal) .maximumf [1] S1000 src 0xFF800000#32 h hφ hacc (ix1 n)
      = (Finset.univ : Finset (Fin 1000)).fold max Spec.negInf (fun m => src (ix2 n m)) := by
  refine (Ideal.multiReduction_maximumf_single src 0xFF800000#32 h hφ hacc (ix1 n)).trans ?_
  refine congrArg (fun f : Fin 1000 → EReal => (Finset.univ : Finset (Fin 1000)).fold max Spec.negInf f) ?_
  funext k
  exact congrArg src (funext fun c => Fin.ext (by match c with | ⟨0, _⟩ => rfl | ⟨1, _⟩ => rfl))

/-! ## The body's values, stage by stage, read at an index

Each stage is one operation of the body applied to the stages before it; the stored value is the last stage with the
unit axis put back. Throughout, the adjacency words are a n m = x1 (n, m) and the features are h n d = x0 (0, n, d). -/

/-- The features as the body holds them: the block with its unit axis dropped (narrowing to bf16 is the identity on the
    extended reals). -/
private def featV (x0 : Vec Ideal S1x1000x64 .f32) : FVec Ideal S1000x64 .bf16 :=
  truncf .bf16 (shapeCast S1000x64 x0 shapeCasts_S1x1000x64_S1000x64) bitsLt_bf16_f32

private theorem featV_apply (x0 : Vec Ideal S1x1000x64 .f32) (n : Fin 1000) (d : Fin 64) :
    featV x0 (ix2 n d) = x0 (ix3 (0 : Fin 1) n d) :=
  shapeCast_1ab_ab_apply x0 shapeCasts_S1x1000x64_S1000x64 n d

/-- The scaled logits: features times their transpose into a zero accumulator, times the splat 1/8. -/
private def logitV (x0 : Vec Ideal S1x1000x64 .f32) : FVec Ideal S1000x1000 .f32 :=
  mulf (matmul dot_S1000x64_S64x1000_S1000x1000_1_0_0_1_n_n none (featV x0)
      (transpose S64x1000 [1, 0] (featV x0) transposes_S1000x64_p1_0_S64x1000) (constant S1000x1000 .f32 0x00000000#32))
    (broadcast S1000x1000 (Scalar.ofBits .f32 0x3E000000#32))

private theorem logitV_apply (x0 : Vec Ideal S1x1000x64 .f32) (n m : Fin 1000) :
    logitV x0 (ix2 n m) = Spec.logit (fun n d => x0 (ix3 (0 : Fin 1) n d)) n m := by
  unfold logitV Spec.logit
  rw [mulf_apply, broadcast_apply]
  refine congrArg (fun t : EReal => t * Spec.scale) ?_
  refine (matmulA_apply _ _ n m).trans ?_
  refine Finset.sum_congr rfl fun k _ => ?_
  rw [transpose_ix2_apply, featV_apply, featV_apply]

/-- The masked logits: the logit where the adjacency word is positive, the fill elsewhere. -/
private def maskedV (x0 : Vec Ideal S1x1000x64 .f32) (x1 : Vec Ideal S1000x1000 .i32) : FVec Ideal S1000x1000 .f32 :=
  select (cmpi .sgt x1 (broadcast S1000x1000 0#32)) (logitV x0) (broadcast S1000x1000 (Scalar.ofBits .f32 0xD368D4A5#32))

private theorem maskedV_apply (x0 : Vec Ideal S1x1000x64 .f32) (x1 : Vec Ideal S1000x1000 .i32) (n m : Fin 1000) :
    maskedV x0 x1 (ix2 n m) = Spec.masked (fun n m => x1 (ix2 n m)) (fun n d => x0 (ix3 (0 : Fin 1) n d)) n m := by
  unfold maskedV Spec.masked
  rw [select_apply, logitV_apply]
  rfl

/-- The row maxima: the fold of max over each row from minus infinity, taken once more against minus infinity. -/
private def rowMaxV (x0 : Vec Ideal S1x1000x64 .f32) (x1 : Vec Ideal S1000x1000 .i32) : FVec Ideal S1000 .f32 :=
  maximumf (broadcast S1000 (Scalar.ofBits .f32 0xFF800000#32))
    (multiReduction .maximumf [1] S1000 (maskedV x0 x1) 0xFF800000#32 reduces_S1000x1000_S1000 (.inl rfl) rfl)

private theorem rowMaxV_apply (x0 : Vec Ideal S1x1000x64 .f32) (x1 : Vec Ideal S1000x1000 .i32) (n : Fin 1000) :
    rowMaxV x0 x1 (ix1 n) = Spec.rowMax (fun n m => x1 (ix2 n m)) (fun n d => x0 (ix3 (0 : Fin 1) n d)) n := by
  unfold rowMaxV Spec.rowMax
  rw [maximumf_apply, broadcast_apply]
  refine congrArg (fun t : EReal => max Spec.negInf t) ?_
  refine (rowFold_apply _ _ _ _ n).trans ?_
  refine congrArg (fun f : Fin 1000 → EReal => (Finset.univ : Finset (Fin 1000)).fold max Spec.negInf f) ?_
  funext m
  exact maskedV_apply x0 x1 n m

/-- The exponentials of the entries shifted by their row's maximum. -/
private def expoV (x0 : Vec Ideal S1x1000x64 .f32) (x1 : Vec Ideal S1000x1000 .i32) : FVec Ideal S1000x1000 .f32 :=
  exp (subf (maskedV x0 x1)
    (broadcastTo S1000x1000 (shapeCast S1000x1 (rowMaxV x0 x1) shapeCasts_S1000_S1000x1) broadcasts_S1000x1_S1000x1000))

private theorem expoV_apply (x0 : Vec Ideal S1x1000x64 .f32) (x1 : Vec Ideal S1000x1000 .i32) (n m : Fin 1000) :
    expoV x0 x1 (ix2 n m) = Spec.expo (fun n m => x1 (ix2 n m)) (fun n d => x0 (ix3 (0 : Fin 1) n d)) n m := by
  unfold expoV Spec.expo
  show Ideal.exp (subf (maskedV x0 x1) _ (ix2 n m)) = _
  rw [subf_apply, column_apply, maskedV_apply, rowMaxV_apply]

/-- The row sums of the exponentials. -/
private def denomV (x0 : Vec Ideal S1x1000x64 .f32) (x1 : Vec Ideal S1000x1000 .i32) : FVec Ideal S1000 .f32 :=
  multiReduction .add [1] S1000 (expoV x0 x1) 0x00000000#32 reduces_S1000x1000_S1000 (.inl rfl) rfl

private theorem denomV_apply (x0 : Vec Ideal S1x1000x64 .f32) (x1 : Vec Ideal S1000x1000 .i32) (n : Fin 1000) :
    denomV x0 x1 (ix1 n) = Spec.denom (fun n m => x1 (ix2 n m)) (fun n d => x0 (ix3 (0 : Fin 1) n d)) n := by
  unfold denomV Spec.denom
  refine (rowSum_apply _ _ _ _ n).trans ?_
  exact Finset.sum_congr rfl fun m _ => expoV_apply x0 x1 n m

/-- The attention weights: each exponential divided by its row's sum (narrowing to bf16 is the identity). -/
private def attnV (x0 : Vec Ideal S1x1000x64 .f32) (x1 : Vec Ideal S1000x1000 .i32) : FVec Ideal S1000x1000 .bf16 :=
  truncf .bf16 (divf (expoV x0 x1)
    (broadcastTo S1000x1000 (shapeCast S1000x1 (denomV x0 x1) shapeCasts_S1000_S1000x1) broadcasts_S1000x1_S1000x1000))
    bitsLt_bf16_f32

private theorem attnV_apply (x0 : Vec Ideal S1x1000x64 .f32) (x1 : Vec Ideal S1000x1000 .i32) (n m : Fin 1000) :
    attnV x0 x1 (ix2 n m) = Spec.attn (fun n m => x1 (ix2 n m)) (fun n d => x0 (ix3 (0 : Fin 1) n d)) n m := by
  unfold attnV Spec.attn
  rw [truncf_apply, divf_apply, column_apply, expoV_apply, denomV_apply]

/-- The new features: the weights times the features into a zero accumulator. -/
private def outV (x0 : Vec Ideal S1x1000x64 .f32) (x1 : Vec Ideal S1000x1000 .i32) : FVec Ideal S1000x64 .f32 :=
  matmul dot_S1000x1000_S1000x64_S1000x64_1_0_0_1_n_n none (attnV x0 x1) (featV x0) (constant S1000x64 .f32 0x00000000#32)

private theorem outV_apply (x0 : Vec Ideal S1x1000x64 .f32) (x1 : Vec Ideal S1000x1000 .i32) (n : Fin 1000) (d : Fin 64) :
    outV x0 x1 (ix2 n d) = Spec.nodeFeat (fun n m => x1 (ix2 n m)) (fun n d => x0 (ix3 (0 : Fin 1) n d)) n d := by
  unfold outV Spec.nodeFeat
  refine (matmulB_apply _ _ n d).trans ?_
  refine Finset.sum_congr rfl fun m _ => ?_
  rw [attnV_apply, featV_apply]

/-- The body's value is the last stage with the unit axis put back: the stages are its operations, one by one. -/
private theorem pay0_eq (x0 : Vec Ideal S1x1000x64 .f32) (x1 : Vec Ideal S1000x1000 .i32) :
    k0_pay1 (F := Ideal) x0 x1 = shapeCast S1x1000x64 (outV x0 x1) shapeCasts_S1000x64_S1x1000x64 := rfl

theorem pay0_apply (x0 : Vec Ideal S1x1000x64 .f32) (x1 : Vec Ideal S1000x1000 .i32) (n : Fin 1000) (d : Fin 64) :
    k0_pay1 (F := Ideal) x0 x1 (ix3 (0 : Fin 1) n d)
      = Spec.nodeFeat (fun n m => x1 (ix2 n m)) (fun n d => x0 (ix3 (0 : Fin 1) n d)) n d := by
  rw [pay0_eq]
  exact (shapeCast_ab_1ab_apply _ _ (0 : Fin 1) n d).trans (outV_apply x0 x1 n d)

end Cert.KernelIdeal.Val

end
-- ==== Proof.KReg0.lean ====
import proofs.«144394_j68367289417954_1_alg».proof.Proof.Gen.KernelIdeal.Frame
import proofs.«144394_j68367289417954_1_alg».proof.Proof.Spec
import proofs.«144394_j68367289417954_1_alg».proof.Proof.KPay0
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a rank-3 rectangle, however they are spelt. -/
private theorem zeroOff3 : (![0, 0, 0] : Fin 3 → Nat) = fun _ => 0 := funext fun a => by fin_cases a <;> rfl
/-- The zero offsets of a rank-2 rectangle, however they are spelt. -/
private theorem zeroOff2 : (![0, 0] : Fin 2 → Nat) = fun _ => 0 := funext fun a => by fin_cases a <;> rfl

/-- The node features of the twelve timestamps as the region finds them, at their literal type. -/
private abbrev featIn (c : Dev nD) : FVec Ideal S12x1000x64 .f32 := V c main_arg0
/-- The adjacency words as the region finds them, at their literal type. -/
private abbrev adjIn (c : Dev nD) : Vec Ideal S1000x1000 .i32 := V c main_arg1

/-- The whole array of attended features: entry (t, n, d) is feature d of node n after one graph attention over
    timestamp t's node features and the adjacency. -/
private abbrev gatArr (c : Dev nD) : FVec Ideal S12x1000x64 .f32 :=
  fun i => Spec.nodeFeat (fun n m => adjIn V c (ix2 n m)) (fun n d => featIn V c (ix3 (i 0) n d)) (i 1) (i 2)

/-- The feature window and the output window move along the time axis only: at point t their block index is
    (t, 0, 0); the adjacency window stays at block (0, 0); and there are twelve points. -/
private theorem blockIdx0 : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ t.val < 12 :=
  (by decide +kernel : ∀ t : Fin grid0.N, _)

/-- What point t writes back is block t of the whole array of attended features. -/
private theorem flushed0_eq (c : Dev nD) (t : Fin cfg0.N) :
    (dat0 (F := Ideal) V c).flushed 2 t = ((cfg0.win 2).blk t).view.read (Elt Ideal) (gatArr V c) := by
  show (cfg0.win 2).cut (grid0.coords t) ((dat0 (F := Ideal) V c).after 2 t) = _
  rw [after0_2]
  unfold out0_2
  rw [View.canon_unit_zero zeroOff3]
  simp only [View.ld_unit_zero (S := S1x1000x64) zeroOff3, View.ld_unit_zero (S := S1000x1000) zeroOff2]
  obtain ⟨e00, e01, e02, e10, e11, e20, e21, e22, hT⟩ := blockIdx0 t
  funext j
  obtain ⟨p, q, r, rfl⟩ : ∃ (p : Fin 1) (q : Fin 1000) (r : Fin 64), j = ix3 p q r := ⟨j 0, j 1, j 2, eq_ix3 j⟩
  obtain rfl : p = 0 := Subsingleton.elim p 0
  have he : ((cfg0.win 2).blk t).view.emb (ix3 (0 : Fin 1) q r) = ix3 (⟨t.val, hT⟩ : Fin 12) q r := by
    funext a; apply Fin.ext
    match a with
    | ⟨0, _⟩ => show win0_2.index t (0 : Fin 3) * 1 + 1 * 0 = t.val; omega
    | ⟨1, _⟩ => show win0_2.index t (1 : Fin 3) * 1000 + 1 * q.val = q.val; omega
    | ⟨2, _⟩ => show win0_2.index t (2 : Fin 3) * 64 + 1 * r.val = r.val; omega
  show k0_pay1 (F := Ideal) (iblk0 V c 0 t) (iblk0 V c 1 t) (ix3 (0 : Fin 1) q r)
    = gatArr V c (((cfg0.win 2).blk t).view.emb (ix3 (0 : Fin 1) q r))
  rw [he]
  refine (pay0_apply (iblk0 V c 0 t) (iblk0 V c 1 t) q r).trans ?_
  show Spec.nodeFeat (fun n m => iblk0 V c 1 t (ix2 n m)) (fun n d => iblk0 V c 0 t (ix3 (0 : Fin 1) n d)) q r
    = Spec.nodeFeat (fun n m => adjIn V c (ix2 n m)) (fun n d => featIn V c (ix3 (⟨t.val, hT⟩ : Fin 12) n d)) q r
  have ha : (fun (n m : Fin 1000) => (iblk0 V c 1 t (ix2 n m) : BitVec 32)) = fun n m => adjIn V c (ix2 n m) :=
    funext fun n => funext fun m => by
      show V c main_arg1 (((cfg0.win 1).blk t).view.emb (ix2 n m)) = V c main_arg1 (ix2 n m)
      refine congrArg _ ?_
      funext a; apply Fin.ext
      match a with
      | ⟨0, _⟩ => show win0_1.index t (0 : Fin 2) * 1000 + 1 * n.val = n.val; omega
      | ⟨1, _⟩ => show win0_1.index t (1 : Fin 2) * 1000 + 1 * m.val = m.val; omega
  have hh : (fun (n : Fin 1000) (d : Fin 64) => (iblk0 V c 0 t (ix3 (0 : Fin 1) n d) : EReal))
      = fun n d => featIn V c (ix3 (⟨t.val, hT⟩ : Fin 12) n d) :=
    funext fun n => funext fun d => by
      show V c main_arg0 (((cfg0.win 0).blk t).view.emb (ix3 (0 : Fin 1) n d)) = V c main_arg0 (ix3 (⟨t.val, hT⟩ : Fin 12) n d)
      refine congrArg _ ?_
      funext a; apply Fin.ext
      match a with
      | ⟨0, _⟩ => show win0_0.index t (0 : Fin 3) * 1 + 1 * 0 = t.val; omega
      | ⟨1, _⟩ => show win0_0.index t (1 : Fin 3) * 1000 + 1 * n.val = n.val; omega
      | ⟨2, _⟩ => show win0_0.index t (2 : Fin 3) * 64 + 1 * d.val = d.val; omega
  exact congrArg₂ (fun a h => Spec.nodeFeat a h q r) ha hh

/-- An index of the array is in point t's block iff each coordinate is in the block's range on its axis. -/
private theorem mem_blk0 (t : Fin cfg0.N) (i : S12x1000x64.Idx) :
    i ∈ ((cfg0.win 2).blk t).view.set ↔ ∀ a : Fin 3, win0_2.index t a * S1x1000x64.size a ≤ (i a).val
      ∧ (i a).val < win0_2.index t a * S1x1000x64.size a + S1x1000x64.size a := by
  show i ∈ ((View.whole main_v0).slice (win0_2.rect t)).set ↔ _
  rw [View.set_slice_whole, Rect.mem_set_unit]
  exact Iff.rfl

/-- The twelve one-timestamp blocks tile the array: timestamp t is the block of point t. -/
private theorem cover0 (i : S12x1000x64.Idx) :
    ∃ t : Fin cfg0.N, (cfg0.win 2).flush t = true ∧ i ∈ ((cfg0.win 2).blk t).view.set := by
  have hi0 : (i 0).val < 12 := (i 0).isLt
  have hi1 : (i 1).val < 1000 := (i 1).isLt
  have hi2 : (i 2).val < 64 := (i 2).isLt
  let t : Fin cfg0.N := ⟨(i 0).val, by rw [show cfg0.N = 12 from N_0]; omega⟩
  obtain ⟨-, -, -, -, -, e20, e21, e22, -⟩ := blockIdx0 t
  have ht : t.val = (i 0).val := rfl
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 64 ≤ (i 2).val ∧ (i 2).val < win0_2.index t (2 : Fin 3) * 64 + 64; omega

/-- After the region the output array is the whole array of attended features. -/
private theorem final0 (c : Dev nD) : (dat0 (F := Ideal) V c).arrAt 2 cfg0.N = gatArr V c :=
  (dat0 (F := Ideal) V c).arrAt_eq_of_cover 2 (gatArr V c) (fun t _ => flushed0_eq V c t) (cover0)

/-- After the region the output array, read at (t, n, d), is feature d of node n after one graph attention over
    timestamp t's node features and the adjacency, both as the region found them. -/
theorem reg0_value (c : Dev nD) (t : Fin 12) (n : Fin 1000) (d : Fin 64) :
    (dat0 (F := Ideal) V c).arrAt 2 cfg0.N (ix3 t n d)
      = Spec.nodeFeat (fun n m => V c main_arg1 (ix2 n m)) (fun n d => V c main_arg0 (ix3 t n d)) n d := by
  rw [final0]

end Cert.KernelIdeal.Val

end
-- ==== Proof.KPay1.lean ====
import proofs.«144394_j68367289417954_1_alg».proof.Proof.Gen.KernelIdeal.Skeleton
import proofs.«144394_j68367289417954_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

/-! ## The batched product's operand indices, axis by axis

The product contracts the feature axis (axis 2 of both operands) and carries the node axis (axis 0 of both) as a
batch axis. At output index `i` = (node, row timestamp, column timestamp) and contraction position `q`, the left
operand is read at (node, row timestamp, q) and the right operand at (node, column timestamp, q). Each of the six
coordinates is stated at its literal axis. -/

private theorem pay1_lhs_0 (i : S200x12x12.Idx) (q : dot_S200x12x64_S200x12x64_S200x12x12_2_2_1_1_0_0.contr.Idx) :
    (dot_S200x12x64_S200x12x64_S200x12x12_2_2_1_1_0_0.lhsIdx i q 0).val = (i 0).val := by
  unfold DotDims.lhsIdx
  rw [dif_pos (show (0 : Fin S200x12x64.rank) ∈ dot_S200x12x64_S200x12x64_S200x12x12_2_2_1_1_0_0.lhsBatch by decide)]
  rfl
private theorem pay1_lhs_1 (i : S200x12x12.Idx) (q : dot_S200x12x64_S200x12x64_S200x12x12_2_2_1_1_0_0.contr.Idx) :
    (dot_S200x12x64_S200x12x64_S200x12x12_2_2_1_1_0_0.lhsIdx i q 1).val = (i 1).val := by
  unfold DotDims.lhsIdx
  rw [dif_neg (show ¬(1 : Fin S200x12x64.rank) ∈ dot_S200x12x64_S200x12x64_S200x12x12_2_2_1_1_0_0.lhsBatch by decide), dif_pos (show (1 : Fin S200x12x64.rank) ∈ dot_S200x12x64_S200x12x64_S200x12x12_2_2_1_1_0_0.lhsNonContracting by decide)]
  rfl
private theorem pay1_lhs_2 (i : S200x12x12.Idx) (q : dot_S200x12x64_S200x12x64_S200x12x12_2_2_1_1_0_0.contr.Idx) :
    (dot_S200x12x64_S200x12x64_S200x12x12_2_2_1_1_0_0.lhsIdx i q 2).val = (q ⟨0, by decide⟩).val :=
  dot_S200x12x64_S200x12x64_S200x12x12_2_2_1_1_0_0.lhsIdx_val_of_single rfl i q
private theorem pay1_rhs_0 (i : S200x12x12.Idx) (q : dot_S200x12x64_S200x12x64_S200x12x12_2_2_1_1_0_0.contr.Idx) :
    (dot_S200x12x64_S200x12x64_S200x12x12_2_2_1_1_0_0.rhsIdx i q 0).val = (i 0).val := by
  unfold DotDims.rhsIdx
  rw [dif_pos (show (0 : Fin S200x12x64.rank) ∈ dot_S200x12x64_S200x12x64_S200x12x12_2_2_1_1_0_0.rhsBatch by decide)]
  rfl
private theorem pay1_rhs_1 (i : S200x12x12.Idx) (q : dot_S200x12x64_S200x12x64_S200x12x12_2_2_1_1_0_0.contr.Idx) :
    (dot_S200x12x64_S200x12x64_S200x12x12_2_2_1_1_0_0.rhsIdx i q 1).val = (i 2).val := by
  unfold DotDims.rhsIdx
  rw [dif_neg (show ¬(1 : Fin S200x12x64.rank) ∈ dot_S200x12x64_S200x12x64_S200x12x12_2_2_1_1_0_0.rhsBatch by decide), dif_pos (show (1 : Fin S200x12x64.rank) ∈ dot_S200x12x64_S200x12x64_S200x12x12_2_2_1_1_0_0.rhsNonContracting by decide)]
  rfl
private theorem pay1_rhs_2 (i : S200x12x12.Idx) (q : dot_S200x12x64_S200x12x64_S200x12x12_2_2_1_1_0_0.contr.Idx) :
    (dot_S200x12x64_S200x12x64_S200x12x12_2_2_1_1_0_0.rhsIdx i q 2).val = (q ⟨0, by decide⟩).val :=
  dot_S200x12x64_S200x12x64_S200x12x12_2_2_1_1_0_0.rhsIdx_val_of_single rfl i q

/-! ## The operations of the temporal kernel, each read at one index -/

/-- The batched product of an array with itself into a zero accumulator, read at `(n, t, u)`: the inner product of
    node `n`'s rows `t` and `u`. The sum over the one-axis contraction index is re-indexed by its one coordinate,
    and the two operand indices are identified coordinate by coordinate. -/
private theorem gram_apply (y : FVec Ideal S200x12x64 .bf16) (n : Fin 200) (t u : Fin 12) :
    matmul dot_S200x12x64_S200x12x64_S200x12x12_2_2_1_1_0_0 none y y (constant (F := Ideal) S200x12x12 .f32 0x00000000#32) (ix3 n t u)
      = ∑ k : Fin 64, y (ix3 n t k) * y (ix3 n u k) := by
  simp only [matmul]
  rw [Ideal.matmul_constant_zero_apply, ← Equiv.sum_comp (ValueIdx.contrEquiv1 dot_S200x12x64_S200x12x64_S200x12x12_2_2_1_1_0_0 64 rfl rfl).symm]
  refine Finset.sum_congr rfl fun k _ => ?_
  have hk := ValueIdx.contrEquiv1_symm_val dot_S200x12x64_S200x12x64_S200x12x12_2_2_1_1_0_0 64 rfl rfl k
  have el : dot_S200x12x64_S200x12x64_S200x12x12_2_2_1_1_0_0.lhsIdx (ix3 n t u) ((ValueIdx.contrEquiv1 dot_S200x12x64_S200x12x64_S200x12x12_2_2_1_1_0_0 64 rfl rfl).symm k) = ix3 n t k := funext fun a => Fin.ext (by
    match a with
    | ⟨0, _⟩ => exact pay1_lhs_0 _ _
    | ⟨1, _⟩ => exact pay1_lhs_1 _ _
    | ⟨2, _⟩ => exact (pay1_lhs_2 _ _).trans hk)
  have er : dot_S200x12x64_S200x12x64_S200x12x12_2_2_1_1_0_0.rhsIdx (ix3 n t u) ((ValueIdx.contrEquiv1 dot_S200x12x64_S200x12x64_S200x12x12_2_2_1_1_0_0 64 rfl rfl).symm k) = ix3 n u k := funext fun a => Fin.ext (by
    match a with
    | ⟨0, _⟩ => exact pay1_rhs_0 _ _
    | ⟨1, _⟩ => exact pay1_rhs_1 _ _
    | ⟨2, _⟩ => exact (pay1_rhs_2 _ _).trans hk)
  rw [el, er]

/-- The product's operand at an index is the loaded array there: the cast to the same shape is the identity, and
    the narrowing of the format is the identity on extended reals. -/
private theorem operand_apply (x : FVec Ideal S200x12x64 .f32) (h : S200x12x64.ShapeCasts S200x12x64)
    (hb : FTy.bf16.bits < FTy.f32.bits) (i : S200x12x64.Idx) :
    (truncf .bf16 (shapeCast S200x12x64 x h) hb : FVec Ideal S200x12x64 .bf16) i = x i := by
  rw [truncf_apply, shapeCast_self]

/-- The logistic function of an array, read at an index, is the logistic function of the element. -/
private theorem logistic_apply (v : FVec Ideal S200x12x12 .f32) (i : S200x12x12.Idx) :
    logistic v i = Ideal.logistic (v i) := rfl

/-- The splat of the word of 1/8, read at an index, is the extended real that word encodes. -/
private theorem scale_apply (i : S200x12x12.Idx) :
    broadcast S200x12x12 (Scalar.ofBits (F := Ideal) .f32 0x3E000000#32) i = Spec.scale := rfl

/-- The stored value of the temporal kernel at `(n, t, u)`: the logistic function of the inner product of node
    `n`'s feature rows `t` and `u`, scaled by 1/8. The logistic function and the scaling are read element by
    element; the batched product is the inner product of the two rows of its operand; the operand is the loaded
    array. -/
theorem pay1_apply (x0 : Vec Ideal S200x12x64 .f32) (n : Fin 200) (t u : Fin 12) :
    k1_pay1 (F := Ideal) x0 (ix3 n t u) = Spec.temporal (fun t d => x0 (ix3 n t d)) t u := by
  unfold k1_pay1
  refine (logistic_apply _ (ix3 n t u)).trans ?_
  unfold Spec.temporal
  refine congrArg Ideal.logistic ?_
  refine (mulf_apply _ _ (ix3 n t u)).trans ?_
  refine congrArg₂ (· * ·) ?_ (scale_apply (ix3 n t u))
  refine (gram_apply _ n t u).trans ?_
  refine Finset.sum_congr rfl fun k _ => ?_
  rw [operand_apply, operand_apply]

end Cert.KernelIdeal.Val

end
-- ==== Proof.KReg1.lean ====
import proofs.«144394_j68367289417954_1_alg».proof.Proof.Gen.KernelIdeal.Frame
import proofs.«144394_j68367289417954_1_alg».proof.Proof.Spec
import proofs.«144394_j68367289417954_1_alg».proof.Proof.KPay1
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a rank-3 rectangle, however they are spelt. -/
private theorem zeroOff3 : (![0, 0, 0] : Fin 3 → Nat) = fun _ => 0 := funext fun a => by fin_cases a <;> rfl

/-- The node features over the twelve timestamps as the region finds them, at their literal type. -/
private abbrev featArr (c : Dev nD) : FVec Ideal S1000x12x64 .f32 := V c main_v1

/-- The whole array of temporal weights: entry (n, t, u) is the temporal step of node n's twelve feature rows at (t, u). -/
private abbrev tempArr (c : Dev nD) : FVec Ideal S1000x12x12 .f32 :=
  fun i => Spec.temporal (fun t d => featArr V c (ix3 (i 0) t d)) (i 1) (i 2)

/-- Both windows move along the node axis only: at point t the block index is (t, 0, 0); and there are five points. -/
private theorem blockIdx1 : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 ∧ t.val < 5 :=
  (by decide +kernel : ∀ t : Fin grid1.N, _)

/-- What point t writes back is block t of the whole array of temporal weights. -/
private theorem flushed1_eq (c : Dev nD) (t : Fin cfg1.N) :
    (dat1 (F := Ideal) V c).flushed 1 t = ((cfg1.win 1).blk t).view.read (Elt Ideal) (tempArr V c) := by
  show (cfg1.win 1).cut (grid1.coords t) ((dat1 (F := Ideal) V c).after 1 t) = _
  rw [after1_1]
  unfold out1_1
  rw [View.canon_unit_zero zeroOff3]
  simp only [View.ld_unit_zero (S := S200x12x64) zeroOff3]
  obtain ⟨e00, e01, e02, e10, e11, e12, ht⟩ := blockIdx1 t
  funext j
  obtain ⟨p, q, r, rfl⟩ : ∃ (p : Fin 200) (q r : Fin 12), j = ix3 p q r := ⟨j 0, j 1, j 2, eq_ix3 j⟩
  have hp : p.val < 200 := p.isLt
  have hN : t.val * 200 + p.val < 1000 := by omega
  have he : ((cfg1.win 1).blk t).view.emb (ix3 p q r) = ix3 (⟨t.val * 200 + p.val, hN⟩ : Fin 1000) q r := by
    funext a; apply Fin.ext
    match a with
    | ⟨0, _⟩ => show win1_1.index t (0 : Fin 3) * 200 + 1 * p.val = t.val * 200 + p.val; omega
    | ⟨1, _⟩ => show win1_1.index t (1 : Fin 3) * 12 + 1 * q.val = q.val; omega
    | ⟨2, _⟩ => show win1_1.index t (2 : Fin 3) * 12 + 1 * r.val = r.val; omega
  show k1_pay1 (F := Ideal) (iblk1 V c 0 t) (ix3 p q r) = tempArr V c (((cfg1.win 1).blk t).view.emb (ix3 p q r))
  rw [he]
  refine (pay1_apply (iblk1 V c 0 t) p q r).trans ?_
  show Spec.temporal (fun t' d => iblk1 V c 0 t (ix3 p t' d)) q r
    = Spec.temporal (fun t' d => featArr V c (ix3 (⟨t.val * 200 + p.val, hN⟩ : Fin 1000) t' d)) q r
  refine congrArg (fun s => Spec.temporal s q r) (funext fun t' => funext fun d => ?_)
  show V c main_v1 (((cfg1.win 0).blk t).view.emb (ix3 p t' d)) = V c main_v1 (ix3 (⟨t.val * 200 + p.val, hN⟩ : Fin 1000) t' d)
  refine congrArg _ ?_
  funext a; apply Fin.ext
  match a with
  | ⟨0, _⟩ => show win1_0.index t (0 : Fin 3) * 200 + 1 * p.val = t.val * 200 + p.val; omega
  | ⟨1, _⟩ => show win1_0.index t (1 : Fin 3) * 12 + 1 * t'.val = t'.val; omega
  | ⟨2, _⟩ => show win1_0.index t (2 : Fin 3) * 64 + 1 * d.val = d.val; omega

/-- An index of the array is in point t's block iff each coordinate is in the block's range on its axis. -/
private theorem mem_blk1 (t : Fin cfg1.N) (i : S1000x12x12.Idx) :
    i ∈ ((cfg1.win 1).blk t).view.set ↔ ∀ a : Fin 3, win1_1.index t a * S200x12x12.size a ≤ (i a).val
      ∧ (i a).val < win1_1.index t a * S200x12x12.size a + S200x12x12.size a := by
  show i ∈ ((View.whole main_v2).slice (win1_1.rect t)).set ↔ _
  rw [View.set_slice_whole, Rect.mem_set_unit]
  exact Iff.rfl

/-- The five blocks of 200 nodes tile the array: node n is in the block of point n / 200. -/
private theorem cover1 (i : S1000x12x12.Idx) :
    ∃ t : Fin cfg1.N, (cfg1.win 1).flush t = true ∧ i ∈ ((cfg1.win 1).blk t).view.set := by
  have hi0 : (i 0).val < 1000 := (i 0).isLt
  have hi1 : (i 1).val < 12 := (i 1).isLt
  have hi2 : (i 2).val < 12 := (i 2).isLt
  let t : Fin cfg1.N := ⟨(i 0).val / 200, by rw [show cfg1.N = 5 from N_1]; omega⟩
  obtain ⟨-, -, -, e10, e11, e12, -⟩ := blockIdx1 t
  have ht : t.val = (i 0).val / 200 := rfl
  refine ⟨t, flush1_1 t, ?_⟩
  rw [mem_blk1]
  intro a
  match a with
  | ⟨0, _⟩ => show win1_1.index t (0 : Fin 3) * 200 ≤ (i 0).val ∧ (i 0).val < win1_1.index t (0 : Fin 3) * 200 + 200; omega
  | ⟨1, _⟩ => show win1_1.index t (1 : Fin 3) * 12 ≤ (i 1).val ∧ (i 1).val < win1_1.index t (1 : Fin 3) * 12 + 12; omega
  | ⟨2, _⟩ => show win1_1.index t (2 : Fin 3) * 12 ≤ (i 2).val ∧ (i 2).val < win1_1.index t (2 : Fin 3) * 12 + 12; omega

/-- After the region the output array is the whole array of temporal weights. -/
private theorem final1 (c : Dev nD) : (dat1 (F := Ideal) V c).arrAt 1 cfg1.N = tempArr V c :=
  (dat1 (F := Ideal) V c).arrAt_eq_of_cover 1 (tempArr V c) (fun t _ => flushed1_eq V c t) (cover1)

/-- After the region the output array, read at (n, t, u), is the temporal step of node n's twelve feature rows as the
    region found them, at rows t and u. -/
theorem reg1_value (c : Dev nD) (n : Fin 1000) (t u : Fin 12) :
    (dat1 (F := Ideal) V c).arrAt 1 cfg1.N (ix3 n t u)
      = Spec.temporal (fun t d => V c main_v1 (ix3 n t d)) t u := by
  rw [final1]

end Cert.KernelIdeal.Val

end
-- ==== Proof.KPay2.lean ====
import proofs.«144394_j68367289417954_1_alg».proof.Proof.Gen.KernelIdeal.Skeleton
import proofs.«144394_j68367289417954_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

/-! ## The layout operations of the outer product, each read at one index

The last kernel multiplies the temporal weights, one per (node, timestamp) and constant along the adjacency's
columns, by the adjacency, one per (node, column) and constant along the timestamps. Both operands are brought to
the common shape [200, 12, 1000] by a trailing or a middle unit axis that is then stretched. Each step keeps the
row-major position of an element (a shape cast) or reads coordinate 0 on the unit axis (a broadcast). -/

/-- A [200, 12] array given a trailing unit axis reads, at `(b, t, z)`, the operand at `(b, t)`: the row-major
    positions are `(b * 12 + t) * 1 + z` and `b * 12 + t`, and `z` is 0. -/
private theorem cast_trailing_unit (v : FVec Ideal S200x12 .f32) (h : S200x12.ShapeCasts S200x12x1)
    (b : Fin 200) (t : Fin 12) (z : Fin 1) :
    shapeCast S200x12x1 v h (ix3 b t z) = v (ix2 b t) :=
  shapeCast_apply v h (ix3 b t z) (ix2 b t) (by
    have hz : z.val = 0 := by omega
    rewrite [Shape.rowMajor_val_two, Shape.rowMajor_val_three]
    show b.val * 12 + t.val = (b.val * 12 + t.val) * 1 + z.val
    omega)

/-- A [200, 1000] array given a middle unit axis reads, at `(b, z, a)`, the operand at `(b, a)`: the row-major
    positions are `(b * 1 + z) * 1000 + a` and `b * 1000 + a`, and `z` is 0. -/
private theorem cast_middle_unit (v : FVec Ideal S200x1000 .f32) (h : S200x1000.ShapeCasts S200x1x1000)
    (b : Fin 200) (z : Fin 1) (a : Fin 1000) :
    shapeCast S200x1x1000 v h (ix3 b z a) = v (ix2 b a) :=
  shapeCast_apply v h (ix3 b z a) (ix2 b a) (by
    have hz : z.val = 0 := by omega
    rewrite [Shape.rowMajor_val_two, Shape.rowMajor_val_three]
    show b.val * 1000 + a.val = (b.val * 1 + z.val) * 1000 + a.val
    omega)

/-- A [200, 12, 1] array stretched along its last axis to [200, 12, 1000] reads, at `(b, t, a)`, the operand at
    `(b, t, 0)`. -/
private theorem stretch_last (v : FVec Ideal S200x12x1 .f32) (h : S200x12x1.Broadcasts S200x12x1000)
    (b : Fin 200) (t : Fin 12) (a : Fin 1000) :
    broadcastTo S200x12x1000 v h (ix3 b t a) = v (ix3 b t (0 : Fin 1)) := by
  refine broadcastTo_apply v h (ix3 b t a) (ix3 b t (0 : Fin 1)) fun ax => ?_
  match ax with
  | ⟨0, _⟩ => rfl
  | ⟨1, _⟩ => rfl
  | ⟨2, _⟩ => rfl

/-- A [200, 1, 1000] array stretched along its middle axis to [200, 12, 1000] reads, at `(b, t, a)`, the operand
    at `(b, 0, a)`. -/
private theorem stretch_middle (v : FVec Ideal S200x1x1000 .f32) (h : S200x1x1000.Broadcasts S200x12x1000)
    (b : Fin 200) (t : Fin 12) (a : Fin 1000) :
    broadcastTo S200x12x1000 v h (ix3 b t a) = v (ix3 b (0 : Fin 1) a) := by
  refine broadcastTo_apply v h (ix3 b t a) (ix3 b (0 : Fin 1) a) fun ax => ?_
  match ax with
  | ⟨0, _⟩ => rfl
  | ⟨1, _⟩ => rfl
  | ⟨2, _⟩ => rfl

/-- The stored value of the last kernel at `(0, b, t, a)`: the temporal weight of node `b` at timestamp `t` times
    the adjacency entry `(b, a)`. The leading unit axis of the result and of the weights is dropped by row-major
    position; the product is read element by element; each factor is followed back through its stretch and its
    unit-axis cast to the argument it came from. -/
theorem pay2_apply (x0 : Vec Ideal S200x1000 .f32) (x1 : Vec Ideal S1x200x12 .f32) (b : Fin 200) (t1 : Fin 12) (a : Fin 1000) :
    k2_pay1 (F := Ideal) x0 x1 (ix4 (0 : Fin 1) b t1 a) = x1 (ix3 (0 : Fin 1) b t1) * x0 (ix2 b a) := by
  unfold k2_pay1
  refine (shapeCast_abc_1abc_apply _ _ (0 : Fin 1) b t1 a).trans ?_
  refine (mulf_apply _ _ (ix3 b t1 a)).trans ?_
  refine congrArg₂ (· * ·) ?_ ?_
  · refine (stretch_last _ _ b t1 a).trans ?_
    refine (cast_trailing_unit _ _ b t1 (0 : Fin 1)).trans ?_
    exact shapeCast_1ab_ab_apply _ _ b t1
  · refine (stretch_middle _ _ b t1 a).trans ?_
    refine (cast_middle_unit _ _ b (0 : Fin 1) a).trans ?_
    rw [shapeCast_self]

end Cert.KernelIdeal.Val

end
-- ==== Proof.KReg2.lean ====
import proofs.«144394_j68367289417954_1_alg».proof.Proof.Gen.KernelIdeal.Frame
import proofs.«144394_j68367289417954_1_alg».proof.Proof.Spec
import proofs.«144394_j68367289417954_1_alg».proof.Proof.KPay2
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The permuted temporal weights as the last region finds them, at their literal type. -/
abbrev swpArr (c : Dev nD) : FVec Ideal S12x1000x12 .f32 := V c main_v3
/-- The adjacency as floats as the last region finds it, at its literal type. -/
abbrev adjArr (c : Dev nD) : FVec Ideal S1000x1000 .f32 := V c main_v4

/-- The zero offset of a rank-2 rectangle, as the constant function. -/
private theorem zeroOff2 : (![0, 0] : Fin 2 → Nat) = fun _ => 0 := funext fun a => by fin_cases a <;> rfl
/-- The zero offset of a rank-3 rectangle, as the constant function. -/
private theorem zeroOff3 : (![0, 0, 0] : Fin 3 → Nat) = fun _ => 0 := funext fun a => by fin_cases a <;> rfl
/-- The zero offset of a rank-4 rectangle, as the constant function. -/
private theorem zeroOff4 : (![0, 0, 0, 0] : Fin 4 → Nat) = fun _ => 0 := funext fun a => by fin_cases a <;> rfl

/-- The outer product the region computes, as ONE function of the two arrays it reads: at (s, n, t, m) the
    temporal weight (s, n, t) times the adjacency entry (n, m). -/
abbrev outerProdArr (c : Dev nD) : FVec Ideal S12x1000x12x1000 .f32 :=
  fun i => swpArr V c (ix3 (i 0) (i 1) (i 2)) * adjArr V c (ix2 (i 1) (i 3))

/-- One block's payload at a block index: the weight block's entry (0, n, t) times the adjacency block's entry
    (n, m), the leading coordinate of a [1, 200, 12, 1000] block being 0. -/
private theorem payload_at (x0 : Vec Ideal S200x1000 .f32) (x1 : Vec Ideal S1x200x12 .f32) (j : S1x200x12x1000.Idx) :
    k2_pay1 (F := Ideal) x0 x1 j = x1 (ix3 (0 : Fin 1) (j 1) (j 2)) * x0 (ix2 (j 1) (j 3)) := by
  obtain ⟨p, q, r, s, rfl⟩ : ∃ p q r s, j = ix4 p q r s := ⟨j 0, j 1, j 2, j 3, eq_ix4 j⟩
  obtain rfl : p = 0 := Subsingleton.elim _ _
  exact pay2_apply x0 x1 q r s

/-- The three index maps, decided over the 60 grid points: the adjacency's row block is the output's node block;
    the weight block sits at the output's (timestamp, node block); every other block index is 0; and the
    output's two moving block indices stay in their ranges. -/
private theorem blockIdx_facts : ∀ t : Fin cfg2.N,
    win2_0.index t (0 : Fin 2) = win2_2.index t (1 : Fin 4)
    ∧ win2_0.index t (1 : Fin 2) = 0
    ∧ win2_1.index t (0 : Fin 3) = win2_2.index t (0 : Fin 4)
    ∧ win2_1.index t (1 : Fin 3) = win2_2.index t (1 : Fin 4)
    ∧ win2_1.index t (2 : Fin 3) = 0
    ∧ win2_2.index t (2 : Fin 4) = 0
    ∧ win2_2.index t (3 : Fin 4) = 0
    ∧ win2_2.index t (0 : Fin 4) ≤ 11
    ∧ win2_2.index t (1 : Fin 4) ≤ 4 :=
  (by decide +kernel : ∀ t : Fin grid2.N, _)

/-- Every (timestamp, node block) pair is some grid point's output block index. -/
private theorem blockIdx_onto : ∀ (q0 : Fin 12) (q1 : Fin 5), ∃ t : Fin cfg2.N, win2_2.index t = ![q0.val, q1.val, 0, 0] :=
  (by decide +kernel : ∀ (q0 : Fin 12) (q1 : Fin 5), ∃ t : Fin grid2.N, win2_2.index t = ![q0.val, q1.val, 0, 0])

/-- What grid point `t` writes back is block `t` of the outer product of the two arrays as the region finds them:
    the payload is read at a block index, and each input block's entry is the array's entry at the place the
    output block's index names (a block's coordinate on an axis is block index × block extent + the inner coordinate). -/
theorem flushed2_eq_outerProd (c : Dev nD) (t : Fin cfg2.N) :
    (dat2 (F := Ideal) V c).flushed 2 t = ((cfg2.win 2).blk t).view.read (Elt Ideal) (outerProdArr V c) := by
  show (cfg2.win 2).cut (grid2.coords t) ((dat2 (F := Ideal) V c).after 2 t) = _
  rw [after2_2]
  unfold out2_2
  rw [View.canon_unit_zero zeroOff4]
  simp only [View.ld_unit_zero (S := S200x1000) zeroOff2, View.ld_unit_zero (S := S1x200x12) zeroOff3]
  obtain ⟨e0, e1, e2, e3, e4, e5, e6, e7, e8⟩ := blockIdx_facts t
  funext j
  refine (payload_at (iblk2 V c 0 t) (iblk2 V c 1 t) j).trans ?_
  show swpArr V c (((cfg2.win 1).blk t).view.emb (ix3 (0 : Fin 1) (j 1) (j 2)))
        * adjArr V c (((cfg2.win 0).blk t).view.emb (ix2 (j 1) (j 3)))
      = swpArr V c (ix3 (((cfg2.win 2).blk t).view.emb j 0) (((cfg2.win 2).blk t).view.emb j 1) (((cfg2.win 2).blk t).view.emb j 2))
        * adjArr V c (ix2 (((cfg2.win 2).blk t).view.emb j 1) (((cfg2.win 2).blk t).view.emb j 3))
  have hj1 : (j 1).val < 200 := (j 1).isLt
  have hj2 : (j 2).val < 12 := (j 2).isLt
  have hj3 : (j 3).val < 1000 := (j 3).isLt
  have hj0 : (j 0).val < 1 := (j 0).isLt
  have hw : ((cfg2.win 1).blk t).view.emb (ix3 (0 : Fin 1) (j 1) (j 2))
      = ix3 (((cfg2.win 2).blk t).view.emb j 0) (((cfg2.win 2).blk t).view.emb j 1) (((cfg2.win 2).blk t).view.emb j 2) := by
    funext a; apply Fin.ext
    match a with
    | ⟨0, _⟩ => show win2_1.index t (0 : Fin 3) * 1 + 1 * (0 : Nat) = win2_2.index t (0 : Fin 4) * 1 + 1 * (j 0).val; omega
    | ⟨1, _⟩ => show win2_1.index t (1 : Fin 3) * 200 + 1 * (j 1).val = win2_2.index t (1 : Fin 4) * 200 + 1 * (j 1).val; omega
    | ⟨2, _⟩ => show win2_1.index t (2 : Fin 3) * 12 + 1 * (j 2).val = win2_2.index t (2 : Fin 4) * 12 + 1 * (j 2).val; omega
  have ha : ((cfg2.win 0).blk t).view.emb (ix2 (j 1) (j 3))
      = ix2 (((cfg2.win 2).blk t).view.emb j 1) (((cfg2.win 2).blk t).view.emb j 3) := by
    funext a; apply Fin.ext
    match a with
    | ⟨0, _⟩ => show win2_0.index t (0 : Fin 2) * 200 + 1 * (j 1).val = win2_2.index t (1 : Fin 4) * 200 + 1 * (j 1).val; omega
    | ⟨1, _⟩ => show win2_0.index t (1 : Fin 2) * 1000 + 1 * (j 3).val = win2_2.index t (3 : Fin 4) * 1000 + 1 * (j 3).val; omega
  rw [hw, ha]
  rfl

/-- An index of the array is in point `t`'s output block iff each coordinate is in the block's range on its axis. -/
private theorem mem_block (t : Fin cfg2.N) (i : S12x1000x12x1000.Idx) :
    i ∈ ((cfg2.win 2).blk t).view.set ↔ ∀ a : Fin 4, win2_2.index t a * S1x200x12x1000.size a ≤ (i a).val
      ∧ (i a).val < win2_2.index t a * S1x200x12x1000.size a + S1x200x12x1000.size a := by
  show i ∈ ((View.whole main_v5).slice (win2_2.rect t)).set ↔ _
  rw [View.set_slice_whole, Rect.mem_set_unit]
  exact Iff.rfl

/-- The output blocks tile the array: the index (s, n, t, m) lies in the block of the point whose output block index is
    (s, n / 200, 0, 0). -/
private theorem covered (i : S12x1000x12x1000.Idx) :
    ∃ t : Fin cfg2.N, (cfg2.win 2).flush t = true ∧ i ∈ ((cfg2.win 2).blk t).view.set := by
  have hi0 : (i 0).val < 12 := (i 0).isLt
  have hi1 : (i 1).val < 1000 := (i 1).isLt
  have hi2 : (i 2).val < 12 := (i 2).isLt
  have hi3 : (i 3).val < 1000 := (i 3).isLt
  obtain ⟨t, ht⟩ := blockIdx_onto ⟨(i 0).val, hi0⟩ ⟨(i 1).val / 200, by omega⟩
  have q0 : win2_2.index t (0 : Fin 4) = (i 0).val := congrFun ht 0
  have q1 : win2_2.index t (1 : Fin 4) = (i 1).val / 200 := congrFun ht 1
  have q2 : win2_2.index t (2 : Fin 4) = 0 := congrFun ht 2
  have q3 : win2_2.index t (3 : Fin 4) = 0 := congrFun ht 3
  refine ⟨t, flush2_2 t, ?_⟩
  rw [mem_block]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 200 ≤ (i 1).val ∧ (i 1).val < win2_2.index t (1 : Fin 4) * 200 + 200; omega
  | ⟨2, _⟩ => show win2_2.index t (2 : Fin 4) * 12 ≤ (i 2).val ∧ (i 2).val < win2_2.index t (2 : Fin 4) * 12 + 12; omega
  | ⟨3, _⟩ => show win2_2.index t (3 : Fin 4) * 1000 ≤ (i 3).val ∧ (i 3).val < win2_2.index t (3 : Fin 4) * 1000 + 1000; omega

/-- The array after the region: the outer product of the two arrays the region read, everywhere. -/
theorem reg2_array (c : Dev nD) : (dat2 (F := Ideal) V c).arrAt 2 cfg2.N = outerProdArr V c :=
  (dat2 (F := Ideal) V c).arrAt_eq_of_cover 2 (outerProdArr V c) (fun t _ => flushed2_eq_outerProd V c t) covered

/-- Read at an index: the entry (s2, b, t1, a) of the array after the region is the temporal weight (s2, b, t1)
    times the adjacency entry (b, a). -/
theorem reg2_value (c : Dev nD) (s2 : Fin 12) (b : Fin 1000) (t1 : Fin 12) (a : Fin 1000) :
    (dat2 (F := Ideal) V c).arrAt 2 cfg2.N (ix4 s2 b t1 a)
      = swpArr V c (ix3 s2 b t1) * adjArr V c (ix2 b a) := by
  exact congrFun (reg2_array V c) (ix4 s2 b t1 a)

end Cert.KernelIdeal.Val

end
-- ==== Proof.KFold.lean ====
import proofs.«144394_j68367289417954_1_alg».proof.Proof.Gen.KernelIdeal.Frame
import proofs.«144394_j68367289417954_1_alg».proof.Proof.Spec
import proofs.«144394_j68367289417954_1_alg».proof.Proof.KReg0
import proofs.«144394_j68367289417954_1_alg».proof.Proof.KReg1
import proofs.«144394_j68367289417954_1_alg».proof.Proof.KReg2
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- After the first host stretch the buffer main_v1 holds the transpose, timestamps and nodes exchanged, of
    what the first region left in main_v0. -/
theorem v1_eq (c : Dev nD) : W2 m ρ c (Proc.devRef .tc main_v1)
    = transpose S1000x12x64 [1, 0, 2] (W1 m ρ c (Proc.devRef .tc main_v0)) transposes_S12x1000x64_S1000x12x64_1_0_2 := by
  show StableHlo.after hostOps1 (W1 m ρ c) (Proc.devRef .tc main_v1) = _
  after_results

/-- After the second host stretch main_v3 holds the transpose of what the second region left in main_v2. -/
theorem v3_eq (c : Dev nD) : W4 m ρ c (Proc.devRef .tc main_v3)
    = transpose S12x1000x12 [2, 0, 1] (W3 m ρ c (Proc.devRef .tc main_v2)) transposes_S1000x12x12_S12x1000x12_2_0_1 := by
  show StableHlo.after hostOps2 (W3 m ρ c) (Proc.devRef .tc main_v3) = _
  after_results

/-- ... and main_v4 holds the adjacency words converted to floats. -/
theorem v4_eq (c : Dev nD) : W4 m ρ c (Proc.devRef .tc main_v4)
    = sitofp (F := Ideal) .f32 (W3 m ρ c (Proc.devRef .tc main_arg1)) := by
  show StableHlo.after hostOps2 (W3 m ρ c) (Proc.devRef .tc main_v4) = _
  after_results

/-- After the last host stretch the result buffer holds the row-major reshape of what the last region left. -/
theorem v6_eq (c : Dev nD) : W6 m ρ c (Proc.devRef .tc main_v6)
    = shapeCast S12000x12000 (W5 m ρ c (Proc.devRef .tc main_v5)) shapeCasts_S12x1000x12x1000_S12000x12000 := by
  show StableHlo.after hostOps3 (W5 m ρ c) (Proc.devRef .tc main_v6) = _
  after_results
  rfl

/-! ## The adjacency argument is untouched up to the last region's entry -/

/-- No host operation and no region writes the adjacency argument: the contents at the second region's exit are
    the launch memory's. -/
theorem arg1_at_W3 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.unary_writes, Finset.mem_singleton]
          exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The three regions' arrays, read at an index -/

/-- The temporal weights the second region leaves, at their literal type. -/
abbrev swArr (c : Dev nD) : FVec Ideal S1000x12x12 .f32 := W3 m ρ c (Proc.devRef .tc main_v2)
/-- The array the last region leaves, at its literal type. -/
abbrev outArr (c : Dev nD) : FVec Ideal S12x1000x12x1000 .f32 := W5 m ρ c (Proc.devRef .tc main_v5)
/-- The adjacency argument as launched, at its literal type. -/
abbrev adjArg (c : Dev nD) : IVec S1000x1000 32 := m ((c : Thread nD τ).loc main_arg1)

/-- What the first region leaves in main_v0: for each timestamp the attention-weighted node features of that
    timestamp's input features under the adjacency. -/
theorem nodeFeat_at (c : Dev nD) (t : Fin 12) (n : Fin 1000) (d : Fin 64) :
    W1 m ρ c (Proc.devRef .tc main_v0) (ix3 t n d)
      = Spec.nodeFeat (fun n k => m ((c : Thread nD τ).loc main_arg1) (ix2 n k))
          (fun n d => m ((c : Thread nD τ).loc main_arg0) (ix3 t n d)) n d := by
  rw [show W1 m ρ c (Proc.devRef .tc main_v0) = (dat0 (V0 m ρ) c).arrAt 2 cfg0.N from W1_arr m ρ c 2]
  exact reg0_value (V0 m ρ) c t n d

/-- What the second region leaves in main_v2: for each node the temporal weights of its twelve feature rows. -/
theorem temporal_at (c : Dev nD) (n : Fin 1000) (t u : Fin 12) :
    W3 m ρ c (Proc.devRef .tc main_v2) (ix3 n t u)
      = Spec.temporal (fun t d => W1 m ρ c (Proc.devRef .tc main_v0) (ix3 t n d)) t u := by
  rw [show W3 m ρ c (Proc.devRef .tc main_v2) = (dat1 (V2 m ρ) c).arrAt 1 cfg1.N from W3_arr m ρ c 1]
  refine (reg1_value (V2 m ρ) c n t u).trans ?_
  refine congrArg (fun s => Spec.temporal s t u) (funext fun t' => funext fun d => ?_)
  show W2 m ρ c (Proc.devRef .tc main_v1) (ix3 n t' d) = _
  rw [v1_eq]
  exact transpose_apply [1, 0, 2] _ transposes_S12x1000x64_S1000x12x64_1_0_2 (ix3 n t' d) (ix3 t' n d)
    (fun b => match b with | ⟨0, _⟩ => rfl | ⟨1, _⟩ => rfl | ⟨2, _⟩ => rfl)

/-- What the last region leaves in main_v5: the temporal weight of (node b, rows t1 and s2) times the adjacency
    word of (b, a) as a float. -/
theorem out_at (c : Dev nD) (s2 : Fin 12) (b : Fin 1000) (t1 : Fin 12) (a : Fin 1000) :
    outArr m ρ c (ix4 s2 b t1 a)
      = swArr m ρ c (ix3 b t1 s2) * FloatOps.sitofp (F := Ideal) .f32 (adjArg m c (ix2 b a)) := by
  show W5 m ρ c (Proc.devRef .tc main_v5) (ix4 s2 b t1 a) = _
  rw [show W5 m ρ c (Proc.devRef .tc main_v5) = (dat2 (V4 m ρ) c).arrAt 2 cfg2.N from W5_arr m ρ c 2]
  refine (reg2_value (V4 m ρ) c s2 b t1 a).trans ?_
  have e3 : swpArr (V4 m ρ) c (ix3 s2 b t1) = swArr m ρ c (ix3 b t1 s2) := by
    show W4 m ρ c (Proc.devRef .tc main_v3) (ix3 s2 b t1) = _
    rw [v3_eq]
    exact transpose_apply [2, 0, 1] _ transposes_S1000x12x12_S12x1000x12_2_0_1 (ix3 s2 b t1) (ix3 b t1 s2)
      (fun k => match k with | ⟨0, _⟩ => rfl | ⟨1, _⟩ => rfl | ⟨2, _⟩ => rfl)
  have e4 : adjArr (V4 m ρ) c (ix2 b a) = FloatOps.sitofp (F := Ideal) .f32 (adjArg m c (ix2 b a)) := by
    show W4 m ρ c (Proc.devRef .tc main_v4) (ix2 b a) = _
    rw [v4_eq, arg1_at_W3]
    rfl
  rw [e3, e4]

end Cert.KernelIdeal.Val

end
-- ==== Proof.OutSpec.lean ====
/-
  The whole result before its final row-major reshape, as one function of the two inputs: at (s2, b, t1, a) the
  temporal weight, for node `b`, of feature rows `t1` and `s2` of the attention-weighted node features, times
  the adjacency word of (b, a) read as a signed integer and converted to a float.
-/
import proofs.«144394_j68367289417954_1_alg».proof.Proof.Spec

noncomputable section

namespace Cert.Spec

open Idealize.ShloMosaic Idealize.ShloMosaic.ValueIdx

/-- The [12, 1000, 12, 1000] array both programs reshape into the result. -/
def out4 (X : (⟨3, ![12, 1000, 64]⟩ : Shape).Idx → EReal) (A : (⟨2, ![1000, 1000]⟩ : Shape).Idx → BitVec 32) :
    (⟨4, ![12, 1000, 12, 1000]⟩ : Shape).Idx → EReal := fun i =>
  temporal (fun t d => nodeFeat (fun n k => A (ix2 n k)) (fun n d => X (ix3 t n d)) (i 1) d) (i 2) (i 0)
    * FloatOps.sitofp (F := Ideal) .f32 (A (ix2 (i 1) (i 3)))

/-- The same at explicit coordinates. -/
theorem out4_apply (X : (⟨3, ![12, 1000, 64]⟩ : Shape).Idx → EReal) (A : (⟨2, ![1000, 1000]⟩ : Shape).Idx → BitVec 32)
    (s2 : Fin 12) (b : Fin 1000) (t1 : Fin 12) (a : Fin 1000) :
    out4 X A (ix4 s2 b t1 a)
      = temporal (fun t d => nodeFeat (fun n k => A (ix2 n k)) (fun n d => X (ix3 t n d)) b d) t1 s2
          * FloatOps.sitofp (F := Ideal) .f32 (A (ix2 b a)) := rfl

end Cert.Spec

end
-- ==== Proof.KValue.lean ====
/-
  The kernel program's result as one function of its two arguments: the three regions' arrays and the host
  stretches between them, composed at an index.
-/
import proofs.«144394_j68367289417954_1_alg».proof.Proof.KFold
import proofs.«144394_j68367289417954_1_alg».proof.Proof.OutSpec

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- What the last region leaves is the whole-result function of the two arguments as launched. -/
theorem out_eq (c : Dev nD) :
    outArr m ρ c = Spec.out4 (m ((c : Thread nD τ).loc main_arg0)) (m ((c : Thread nD τ).loc main_arg1)) := by
  funext i
  obtain ⟨s2, b, t1, a, rfl⟩ : ∃ (s2 : Fin 12) (b : Fin 1000) (t1 : Fin 12) (a : Fin 1000), i = ix4 s2 b t1 a :=
    ⟨i 0, i 1, i 2, i 3, eq_ix4 i⟩
  rw [out_at, Spec.out4_apply]
  refine congrArg (· * _) ?_
  show W3 m ρ c (Proc.devRef .tc main_v2) (ix3 b t1 s2) = _
  rw [temporal_at]
  exact congrArg (fun s => Spec.temporal s t1 s2) (funext fun t => funext fun d => nodeFeat_at m ρ c t b d)

/-- The result buffer at the last boundary is the row-major reshape of that function. -/
theorem kernel_value (c : Dev nD) :
    W6 m ρ c (Proc.devRef .tc main_v6)
      = shapeCast S12000x12000 (Spec.out4 (m ((c : Thread nD τ).loc main_arg0)) (m ((c : Thread nD τ).loc main_arg1)))
          shapeCasts_S12x1000x12x1000_S12000x12000 := by
  rw [v6_eq]
  exact congrArg (fun y => shapeCast S12000x12000 y shapeCasts_S12x1000x12x1000_S12000x12000) (out_eq m ρ c)

end Cert.KernelIdeal.Val

end
-- ==== Proof.RefStages.lean ====
/-
  The reference program's stages, read at an index over the extended reals and brought to the shared specification.

  Each stage of the generated reading is a function of an index; composing the layout operations' index maps at
  explicit coordinates gives one coordinate tuple again, so every stage becomes a statement about one element:
  the logit at (t, n, m) is the inner product of feature rows n and m of timestamp t times the scale; the masked
  logit keeps it where the adjacency word is positive and puts the fill elsewhere; the row maximum is the fold of
  `max` along the last axis from minus infinity, taken once more against minus infinity; the exponential of the
  shifted entry, the row's sum of exponentials (from an initial value zero), their quotient, and the weighted sum of
  the feature rows follow.  The temporal stage transposes the node features, contracts rows t and u of one node over
  the 64 features, scales, and applies 1 / (1 + exp (-x)), which is the logistic function by definition once the word
  of the constant one is read as 1.  The last stage multiplies the transposed temporal weight by the adjacency word
  converted to a float.
-/
import proofs.«144394_j68367289417954_1_alg».proof.Proof.Gen.ReferenceIdeal.Run
import proofs.«144394_j68367289417954_1_alg».proof.Proof.Gen.ReferenceIdeal.Read
import proofs.«144394_j68367289417954_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S12x1000x64, .f32⟩ : BufTy).Contents (Elt Ideal)) (x1 : (⟨S1000x1000, .i32⟩ : BufTy).Contents (Elt Ideal))

/-- The logit stage at (t, n, m): the inner product of rows n and m of timestamp t, times the scale. -/
private theorem logit_at (t : Fin 12) (n m : Fin 1000) :
    val_main_v2 (F := Ideal) x0 (ix3 t n m) = Spec.logit (fun n d => x0 (ix3 t n d)) n m := by
  rw [val_main_v2_apply, val_main_v0_apply, val_main_v1_apply, val_main_cst_apply]
  have el : ∀ k : Fin 64, lidx_main_v0 (ix3 t n m) k = ix3 t n k := fun k =>
    funext fun c => Fin.ext (by match c with | ⟨0, _⟩ => rfl | ⟨1, _⟩ => rfl | ⟨2, _⟩ => rfl)
  have er : ∀ k : Fin 64, ridx_main_v0 (ix3 t n m) k = ix3 t m k := fun k =>
    funext fun c => Fin.ext (by match c with | ⟨0, _⟩ => rfl | ⟨1, _⟩ => rfl | ⟨2, _⟩ => rfl)
  simp only [el, er, Ideal.mulf_def, Ideal.ofBits_def]
  rfl

/-- The masked logit at (t, n, m): the logit where the adjacency word is positive, the fill elsewhere. -/
private theorem masked_at (t : Fin 12) (n m : Fin 1000) :
    val_main_v6 (F := Ideal) x0 x1 (ix3 t n m)
      = Spec.masked (fun n m => x1 (ix2 n m)) (fun n d => x0 (ix3 t n d)) n m := by
  rw [val_main_v6_apply, val_main_call0_v1_apply, val_main_v5_apply, val_main_v3_apply, val_main_v4_apply,
    val_main_c_apply, val_main_call0_v2_apply, val_main_call0_v0_apply, val_main_cst_0_apply, logit_at]
  have e : idx_main_v3 (idx_main_call0_v1 (ix3 t n m)) = ix2 n m :=
    funext fun c => Fin.ext (by match c with | ⟨0, _⟩ => rfl | ⟨1, _⟩ => rfl)
  rw [e]
  rfl

/-- The row maximum at (t, n): the fold of `max` over the row of masked logits from minus infinity, taken once
    more against minus infinity. -/
private theorem rowMax_at (t : Fin 12) (n : Fin 1000) :
    val_main_v9 (F := Ideal) x0 x1 (ix2 t n)
      = Spec.rowMax (fun n m => x1 (ix2 n m)) (fun n d => x0 (ix3 t n d)) n := by
  rw [val_main_v9_apply, val_main_v8_apply, val_main_cst_2_apply]
  unfold val_main_v7
  have hR : S12x1000x1000.Reduces [2] S12x1000 := by decide
  rw [Host.reduce_eq_fold_single FloatOps.maximumf _ _ reducesTo_S12x1000x1000_S12x1000_d2 hR h_S_ (ix2 t n),
    val_main_cst_1_apply]
  have hl : (val_main_v6 (F := Ideal) x0 x1 ∘ hR.lift (ix2 t n))
      = Spec.masked (fun n m => x1 (ix2 n m)) (fun n d => x0 (ix3 t n d)) n := by
    funext k
    have hk : hR.lift (ix2 t n) k = ix3 t n k :=
      funext fun c => Fin.ext (by match c with | ⟨0, _⟩ => rfl | ⟨1, _⟩ => rfl | ⟨2, _⟩ => rfl)
    show val_main_v6 (F := Ideal) x0 x1 (hR.lift (ix2 t n) k) = _
    rw [hk]
    exact masked_at x0 x1 t n k
  rw [hl]
  rfl

/-- The exponential stage at (t, n, m): the exponential of the masked logit shifted by its row's maximum. -/
private theorem expo_at (t : Fin 12) (n m : Fin 1000) :
    val_main_v13 (F := Ideal) x0 x1 (ix3 t n m)
      = Spec.expo (fun n m => x1 (ix2 n m)) (fun n d => x0 (ix3 t n d)) n m := by
  rw [val_main_v13_apply, val_main_v12_apply, val_main_v11_apply, val_main_v10_apply, masked_at]
  have e : idx_main_v10 (idx_main_v11 (ix3 t n m)) = ix2 t n :=
    funext fun c => Fin.ext (by match c with | ⟨0, _⟩ => rfl | ⟨1, _⟩ => rfl)
  rw [e, rowMax_at]
  rfl

/-- The row sum at (t, n): zero plus the sum of the row's exponentials. -/
private theorem denom_at (t : Fin 12) (n : Fin 1000) :
    val_main_v14 (F := Ideal) x0 x1 (ix2 t n)
      = Spec.denom (fun n m => x1 (ix2 n m)) (fun n d => x0 (ix3 t n d)) n := by
  rw [val_main_v14_apply, val_main_cst_3_apply]
  have e : ∀ k : Fin 1000, idx_main_v14 (ix2 t n) k = ix3 t n k := fun k =>
    funext fun c => Fin.ext (by match c with | ⟨0, _⟩ => rfl | ⟨1, _⟩ => rfl | ⟨2, _⟩ => rfl)
  simp only [e, expo_at, Ideal.ofBits_def, Ideal.ofBits_zero_f32, zero_add]
  rfl

/-- The attention weight at (t, n, m): the exponential over its row's sum. -/
private theorem attn_at (t : Fin 12) (n m : Fin 1000) :
    val_main_v17 (F := Ideal) x0 x1 (ix3 t n m)
      = Spec.attn (fun n m => x1 (ix2 n m)) (fun n d => x0 (ix3 t n d)) n m := by
  rw [val_main_v17_apply, val_main_v16_apply, val_main_v15_apply, expo_at]
  have e : idx_main_v15 (idx_main_v16 (ix3 t n m)) = ix2 t n :=
    funext fun c => Fin.ext (by match c with | ⟨0, _⟩ => rfl | ⟨1, _⟩ => rfl)
  rw [e, denom_at]
  rfl

/-- The node features at (t, n, d): the attention-weighted sum over the nodes `m` of feature `d` of node `m`. -/
theorem ref_nodeFeat (t : Fin 12) (n : Fin 1000) (d : Fin 64) :
    val_main_v18 (F := Ideal) x0 x1 (ix3 t n d)
      = Spec.nodeFeat (fun n m => x1 (ix2 n m)) (fun n d => x0 (ix3 t n d)) n d := by
  rw [val_main_v18_apply]
  have el : ∀ k : Fin 1000, lidx_main_v18 (ix3 t n d) k = ix3 t n k := fun k =>
    funext fun c => Fin.ext (by match c with | ⟨0, _⟩ => rfl | ⟨1, _⟩ => rfl | ⟨2, _⟩ => rfl)
  have er : ∀ k : Fin 1000, ridx_main_v18 (ix3 t n d) k = ix3 t k d := fun k =>
    funext fun c => Fin.ext (by match c with | ⟨0, _⟩ => rfl | ⟨1, _⟩ => rfl | ⟨2, _⟩ => rfl)
  simp only [el, er, attn_at]
  rfl

/-- The word of the constant one is the extended real `1`. -/
private theorem ofBits_one_f32 : Ideal.ofBits .f32 0x3F800000#32 = 1 := by
  simp [Ideal.ofBits, Ideal.ieee, -EReal.coe_mul]; norm_num

/-- The temporal weight of node `n` between timestamps `t` and `u`: the logistic function of the scaled inner
    product of the node's feature rows at `t` and `u`. -/
theorem ref_temporal (n : Fin 1000) (t u : Fin 12) :
    val_main_v28 (F := Ideal) x0 x1 (ix3 n t u)
      = Spec.temporal (fun t d => val_main_v18 (F := Ideal) x0 x1 (ix3 t n d)) t u := by
  rw [val_main_v28_apply, val_main_v27_apply, val_main_cst_6_apply, val_main_v26_apply, val_main_v25_apply,
    val_main_cst_5_apply, val_main_v24_apply, val_main_v23_apply, val_main_v22_apply, val_main_v21_apply,
    val_main_cst_4_apply, val_main_v20_apply]
  have el : ∀ k : Fin 64, idx_main_v19 (lidx_main_v20 (ix3 n t u) k) = ix3 t n k := fun k =>
    funext fun c => Fin.ext (by match c with | ⟨0, _⟩ => rfl | ⟨1, _⟩ => rfl | ⟨2, _⟩ => rfl)
  have er : ∀ k : Fin 64, idx_main_v19 (ridx_main_v20 (ix3 n t u) k) = ix3 u n k := fun k =>
    funext fun c => Fin.ext (by match c with | ⟨0, _⟩ => rfl | ⟨1, _⟩ => rfl | ⟨2, _⟩ => rfl)
  simp only [val_main_v19_apply, el, er, Ideal.hostDivf_def, Ideal.addf_def, Ideal.hostUnary_exp_def,
    Ideal.hostNegf_def, Ideal.negf_def, Ideal.mulf_def, Ideal.ofBits_def, ofBits_one_f32]
  rfl

/-- The output at (s2, b, t1, a): the temporal weight of node `b` between `t1` and `s2` times the adjacency word of
    (b, a) converted to a float. -/
theorem ref_out (s2 : Fin 12) (b : Fin 1000) (t1 : Fin 12) (a : Fin 1000) :
    val_main_v35 (F := Ideal) x0 x1 (ix4 s2 b t1 a)
      = val_main_v28 (F := Ideal) x0 x1 (ix3 b t1 s2) * FloatOps.sitofp (F := Ideal) .f32 (x1 (ix2 b a)) := by
  rw [val_main_v35_apply, val_main_v33_apply, val_main_v30_apply, val_main_v29_apply,
    val_main_v34_apply, val_main_v32_apply, val_main_v31_apply]
  have e1 : idx_main_v29 (idx_main_v30 (idx_main_v33 (ix4 s2 b t1 a))) = ix3 b t1 s2 :=
    funext fun c => Fin.ext (by match c with | ⟨0, _⟩ => rfl | ⟨1, _⟩ => rfl | ⟨2, _⟩ => rfl)
  have e2 : idx_main_v32 (idx_main_v34 (ix4 s2 b t1 a)) = ix2 b a :=
    funext fun c => Fin.ext (by match c with | ⟨0, _⟩ => rfl | ⟨1, _⟩ => rfl)
  rw [e1, e2]
  rfl

end Cert.ReferenceIdeal.Stages

end
-- ==== Proof.RefValue.lean ====
/-
  The reference program's result as the same function of its two arguments: its stages composed at an index.
-/
import proofs.«144394_j68367289417954_1_alg».proof.Proof.RefStages
import proofs.«144394_j68367289417954_1_alg».proof.Proof.OutSpec

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S12x1000x64, .f32⟩ : BufTy).Contents (Elt Ideal)) (x1 : (⟨S1000x1000, .i32⟩ : BufTy).Contents (Elt Ideal))

/-- The stage before the final reshape is the whole-result function of the two arguments. -/
theorem v35_eq : val_main_v35 (F := Ideal) x0 x1 = Spec.out4 x0 x1 := by
  funext i
  obtain ⟨s2, b, t1, a, rfl⟩ : ∃ (s2 : Fin 12) (b : Fin 1000) (t1 : Fin 12) (a : Fin 1000), i = ix4 s2 b t1 a :=
    ⟨i 0, i 1, i 2, i 3, eq_ix4 i⟩
  rw [ref_out, Spec.out4_apply, ref_temporal]
  exact congrArg (fun s => Spec.temporal s t1 s2 * _) (funext fun t => funext fun d => ref_nodeFeat x0 x1 t b d)

/-- The result is the row-major reshape of that function. -/
theorem ref_value :
    val_main_v36 (F := Ideal) x0 x1 = shapeCast S12000x12000 (Spec.out4 x0 x1) shapeCasts_S12x1000x12x1000_S12000x12000 := by
  unfold val_main_v36
  exact congrArg (fun y => shapeCast S12000x12000 y shapeCasts_S12x1000x12x1000_S12000x12000) (v35_eq x0 x1)

end Cert.ReferenceIdeal.Stages

end
-- ==== Proof.lean ====
/-
  The kernel program computes, in three grid regions joined by transposes, an adjacency-masked softmax attention over
  the nodes at each of twelve timestamps, a logistic temporal weight per node and pair of timestamps, and the outer
  product of those weights with the adjacency, reshaped to a square matrix; the reference program computes the same
  with whole-array operations.  Over the extended reals both results are one function of the two inputs, index by
  index (Proof/Spec.lean, Proof/OutSpec.lean): every sum ranges over the same index set on both sides, the scale,
  the mask fill and the initial values are the same words, and the logistic function is by definition the
  quotient 1 / (1 + exp (-x)) the reference spells out.  No law that needs finite values is used.

  The kernel side: each region's output array is its body's arithmetic applied block by block, the blocks tiling
  the array (Proof/KReg0.lean, KReg1.lean, KReg2.lean over the bodies' arithmetic in KPay0.lean, KPay1.lean,
  KPay2.lean); the arrays are threaded through the host operations between the regions (Proof/KFold.lean,
  KValue.lean); the run itself is the generated frame's launch with the result buffer also read (Proof/KRun.lean).
  The reference side: its stages read at an index (Proof/RefStages.lean, RefValue.lean) over the generated run.
-/
import proofs.«144394_j68367289417954_1_alg».proof.Defs
import proofs.«144394_j68367289417954_1_alg».proof.Proof.Gen.Kernel
import proofs.«144394_j68367289417954_1_alg».proof.Proof.Gen.Kernel.Skeleton
import proofs.«144394_j68367289417954_1_alg».proof.Proof.Gen.Kernel.Launch
import proofs.«144394_j68367289417954_1_alg».proof.Proof.Gen.Kernel.Points
import proofs.«144394_j68367289417954_1_alg».proof.Proof.Gen.Kernel.Frame
import proofs.«144394_j68367289417954_1_alg».proof.Proof.Gen.KernelIdeal
import proofs.«144394_j68367289417954_1_alg».proof.Proof.Gen.KernelIdeal.Skeleton
import proofs.«144394_j68367289417954_1_alg».proof.Proof.Gen.KernelIdeal.Launch
import proofs.«144394_j68367289417954_1_alg».proof.Proof.Gen.KernelIdeal.Points
import proofs.«144394_j68367289417954_1_alg».proof.Proof.Gen.KernelIdeal.Frame
import proofs.«144394_j68367289417954_1_alg».proof.Proof.Gen.ReferenceIdeal
import proofs.«144394_j68367289417954_1_alg».proof.Proof.Gen.ReferenceIdeal.Run
import proofs.«144394_j68367289417954_1_alg».proof.Proof.Gen.ReferenceIdeal.Read
import proofs.«144394_j68367289417954_1_alg».proof.Proof.Gen.Pre_finite_inputs
import proofs.«144394_j68367289417954_1_alg».proof.Proof.KRun
import proofs.«144394_j68367289417954_1_alg».proof.Proof.KValue
import proofs.«144394_j68367289417954_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference has no kernel: its frame is its run with the result dropped
    exact fun m ρ _ => (θ_run Cert.ReferenceIdeal.defs _ _).mono (fun _ h c => (h c).2)
      (Cert.ReferenceIdeal.Value.run (F := Ideal) m ρ)
  · -- both runs end at the row-major reshape of one function of the (agreeing) arguments
    intro m ρ m' ρ' _ hagree
    refine ⟨_, (θ_run Cert.KernelIdeal.defs _ _).mono
        (fun r h c => ⟨(h c).1.trans (Cert.KernelIdeal.Val.kernel_value m ρ c), (h c).2⟩)
        (Cert.KernelIdeal.RunValue.run m ρ), ?_⟩
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, Cert.ReferenceIdeal.Stages.ref_value, (hagree c).1, (hagree c).2]⟩

end Cert.Proof

end
